-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S384x128 : Shape := ⟨2, ![384, 128]⟩
abbrev S384 : Shape := ⟨1, ![384]⟩
abbrev S128x32 : Shape := ⟨2, ![128, 32]⟩
abbrev S32 : Shape := ⟨1, ![32]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_arg1 : IVec S2x800000 32) (main_arg15 : FVec F S32 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : IVec S1x800000 32 := (extractStridedSlice S1x800000 ![0, 0] · slices_S2x800000_S1x800000_0_0) main_arg1
  let main_v75 : IVec S800000 32 := shapeCast S800000 main_v74 shapeCasts_S1x800000_S800000
  let main_c_28 : IVec S_ 32 := constantI S_ 32 4294917296#32
  let main_v76 : IVec S800000 32 := broadcastInDim S800000 ![] bcast_S_S800000 main_c_28
  let main_v77 : IVec S800000 1 := cmpi .sge main_v75 main_v76
  let main_v78 : IVec S1x800000 32 := (extractStridedSlice S1x800000 ![0, 0] · slices_S2x800000_S1x800000_0_0) main_arg1
  let main_v79 : IVec S800000 32 := shapeCast S800000 main_v78 shapeCasts_S1x800000_S800000
  let main_c_29 : IVec S_ 32 := constantI S_ 32 50000#32
  let main_v80 : IVec S800000 32 := broadcastInDim S800000 ![] bcast_S_S800000 main_c_29
  let main_v81 : IVec S800000 1 := cmpi .slt main_v79 main_v80
  let main_v82 : IVec S800000 1 := andi main_v77 main_v81
  let main_c_30 : IVec S_ 1 := constantI S_ 1 1#1
  let main_v83 : IVec S_ 1 := (fun x v => Host.reduce IntOp.andi x v reducesTo_S800000_S_d0 h_S_) main_v82 main_c_30
  let main_v84 : IVec S_ 1 := andi main_v73 main_v83
  main_v84

def fn_part3 {F : FTy → Type} [FloatOps F] (main_arg1 : IVec S2x800000 32) (main_arg12 : FVec F S384 .f32) (main_arg13 : FVec F S384 .f32) (main_arg14 : FVec F S128x32 .f32) (main_arg15 : FVec F S32 .f32) (main_v48 : IVec S_ 1) (main_v49 : FVec F S384x128 .f32) (main_v50 : FVec F S384x128 .f32) : IVec S_ 1 :=
  let main_v51 : IVec S384x128 1 := cmpf .olt main_v49 main_v50
  let main_c_19 : IVec S_ 1 := constantI S_ 1 1#1
  let main_v52 : IVec S_ 1 := (fun x v => Host.reduce IntOp.andi x v reducesTo_S384x128_S_d0_1 h_S_) main_v51 main_c_19
  let main_v53 : IVec S_ 1 := andi main_v48 main_v52
  let main_v54 : FVec F S384 .f32 := Host.absf main_arg12
  let main_cst_20 : FVec F S_ .f32 := constant S_ .f32 0x7F800000#32
  let main_v55 : FVec F S384 .f32 := broadcastInDim S384 ![] bcast_S_S384 main_cst_20
  let main_v56 : IVec S384 1 := cmpf .olt main_v54 main_v55
  let main_c_21 : IVec S_ 1 := constantI S_ 1 1#1
  let main_v57 : IVec S_ 1 := (fun x v => Host.reduce IntOp.andi x v reducesTo_S384_S_d0 h_S_) main_v56 main_c_21
  let main_v58 : IVec S_ 1 := andi main_v53 main_v57
  let main_v59 : FVec F S384 .f32 := Host.absf main_arg13
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  let main_v64 : FVec F S128x32 .f32 := Host.absf main_arg14
  let main_cst_24 : FVec F S_ .f32 := constant S_ .f32 0x7F800000#32
  let main_v65 : FVec F S128x32 .f32 := broadcastInDim S128x32 ![] bcast_S_S128x32 main_cst_24
  let main_v66 : IVec S128x32 1 := cmpf .olt main_v64 main_v65
  let main_c_25 : IVec S_ 1 := constantI S_ 1 1#1
  let main_v67 : IVec S_ 1 := (fun x v => Host.reduce IntOp.andi x v reducesTo_S128x32_S_d0_1 h_S_) main_v66 main_c_25
  fn_part4 (F := F) main_arg1 main_arg15 main_v63 main_v67

def fn_part2 {F : FTy → Type} [FloatOps F] (main_arg1 : IVec S2x800000 32) (main_arg8 : FVec F S384 .f32) (main_arg9 : FVec F S128x128 .f32) (main_arg10 : FVec F S384x128 .f32) (main_arg11 : FVec F S384x128 .f32) (main_arg12 : FVec F S384 .f32) (main_arg13 : FVec F S384 .f32) (main_arg14 : FVec F S128x32 .f32) (main_arg15 : FVec F S32 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S384x128 .f32 := Host.absf main_arg10
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S384x128 .f32 := Host.absf main_arg11
  let main_cst_18 : FVec F S_ .f32 := constant S_ .f32 0x7F800000#32
  let main_v50 : FVec F S384x128 .f32 := broadcastInDim S384x128 ![] bcast_S_S384x128 main_cst_18
  fn_part3 (F := F) main_arg1 main_arg12 main_arg13 main_arg14 main_arg15 main_v48 main_v49 main_v50

def fn_part1 {F : FTy → Type} [FloatOps F] (main_arg1 : IVec S2x800000 32) (main_arg5 : FVec F S384x128 .f32) (main_arg6 : FVec F S384x128 .f32) (main_arg7 : FVec F S384 .f32) (main_arg8 : FVec F S384 .f32) (main_arg9 : FVec F S128x128 .f32) (main_arg10 : FVec F S384x128 .f32) (main_arg11 : FVec F S384x128 .f32) (main_arg12 : FVec F S384 .f32) (main_arg13 : FVec F S384 .f32) (main_arg14 : FVec F S128x32 .f32) (main_arg15 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384x128 .f32 := Host.absf main_arg6
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S384x128 .f32) (main_arg6 : FVec F S384x128 .f32) (main_arg7 : FVec F S384 .f32) (main_arg8 : FVec F S384 .f32) (main_arg9 : FVec F S128x128 .f32) (main_arg10 : FVec F S384x128 .f32) (main_arg11 : FVec F S384x128 .f32) (main_arg12 : FVec F S384 .f32) (main_arg13 : FVec F S384 .f32) (main_arg14 : FVec F S128x32 .f32) (main_arg15 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S384x128 : Shape := ⟨2, ![384, 128]⟩
abbrev S384 : Shape := ⟨1, ![384]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S1x128 : Shape := ⟨2, ![1, 128]⟩
abbrev S2000x128 : Shape := ⟨2, ![2000, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S128x384 : Shape := ⟨2, ![128, 384]⟩
abbrev S1x384 : Shape := ⟨2, ![1, 384]⟩
abbrev S2000x384 : Shape := ⟨2, ![2000, 384]⟩
abbrev S1x32 : Shape := ⟨2, ![1, 32]⟩
abbrev S50000x32 : Shape := ⟨2, ![50000, 32]⟩
abbrev S2000x32 : Shape := ⟨2, ![2000, 32]⟩

abbrev nBuf : Space → Nat
  | .hbm => 89
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S384x128, .f32⟩
  | .hbm, ⟨6, _⟩ => ⟨S384x128, .f32⟩
  | .hbm, ⟨7, _⟩ => ⟨S384, .f32⟩
  | .hbm, ⟨8, _⟩ => ⟨S384, .f32⟩
  | .hbm, ⟨9, _⟩ => ⟨S128x128, .f32⟩
  | .hbm, ⟨10, _⟩ => ⟨S384x128, .f32⟩
  | .hbm, ⟨11, _⟩ => ⟨S384x128, .f32⟩
  | .hbm, ⟨12, _⟩ => ⟨S384, .f32⟩
  | .hbm, ⟨13, _⟩ => ⟨S384, .f32⟩
  | .hbm, ⟨14, _⟩ => ⟨S128x32, .f32⟩
  | .hbm, ⟨15, _⟩ => ⟨S32, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S1x128, .f32⟩
  | .hbm, ⟨21, _⟩ => ⟨S50000x128, .f32⟩
  | .hbm, ⟨22, _⟩ => ⟨S50000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S1, .i32⟩
  | .hbm, ⟨32, _⟩ => ⟨S_, .i32⟩
  | .hbm, ⟨33, _⟩ => ⟨S800000x1, .i32⟩
  | .hbm, ⟨34, _⟩ => ⟨S800000x1, .i1⟩
  | .hbm, ⟨35, _⟩ => ⟨S1x1, .i32⟩
  | .hbm, ⟨36, _⟩ => ⟨S800000x1, .i32⟩
  | .hbm, ⟨37, _⟩ => ⟨S800000x1, .i1⟩
  | .hbm, ⟨38, _⟩ => ⟨S800000x1, .i1⟩
  | .hbm, ⟨39, _⟩ => ⟨S_, .i1⟩
  | .hbm, ⟨40, _⟩ => ⟨S800000, .i1⟩
  | .hbm, ⟨41, _⟩ => ⟨S800000x128, .f32⟩
  | .hbm, ⟨42, _⟩ => ⟨S800000x128, .i1⟩
  | .hbm, ⟨43, _⟩ => ⟨S_, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S128x384, .f32⟩
  | .hbm, ⟨51, _⟩ => ⟨S128x384, .f32⟩
  | .hbm, ⟨52, _⟩ => ⟨S1x384, .f32⟩
  | .hbm, ⟨53, _⟩ => ⟨S1x384, .f32⟩
  | .hbm, ⟨54, _⟩ => ⟨S50000x128, .f32⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S1, .i32⟩
  | .hbm, ⟨65, _⟩ => ⟨S_, .i32⟩
  | .hbm, ⟨66, _⟩ => ⟨S800000x1, .i32⟩
  | .hbm, ⟨67, _⟩ => ⟨S800000x1, .i1⟩
  | .hbm, ⟨68, _⟩ => ⟨S1x1, .i32⟩
  | .hbm, ⟨69, _⟩ => ⟨S800000x1, .i32⟩
  | .hbm, ⟨70, _⟩ => ⟨S800000x1, .i1⟩
  | .hbm, ⟨71, _⟩ => ⟨S800000x1, .i1⟩
  | .hbm, ⟨72, _⟩ => ⟨S_, .i1⟩
  | .hbm, ⟨73, _⟩ => ⟨S800000, .i1⟩
  | .hbm, ⟨74, _⟩ => ⟨S800000x128, .f32⟩
  | .hbm, ⟨75, _⟩ => ⟨S800000x128, .i1⟩
  | .hbm, ⟨76, _⟩ => ⟨S_, .f32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S128x384, .f32⟩
  | .hbm, ⟨84, _⟩ => ⟨S128x384, .f32⟩
  | .hbm, ⟨85, _⟩ => ⟨S1x384, .f32⟩
  | .hbm, ⟨86, _⟩ => ⟨S1x384, .f32⟩
  | .hbm, ⟨87, _⟩ => ⟨S1x32, .f32⟩
  | .hbm, ⟨88, _⟩ => ⟨S50000x32, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x384, .f32⟩
  | .local _ .vmem, ⟨14, _⟩ => ⟨S128x384, .f32⟩
  | .local _ .vmem, ⟨15, _⟩ => ⟨S1x384, .f32⟩
  | .local _ .vmem, ⟨16, _⟩ => ⟨S1x384, .f32⟩
  | .local _ .vmem, ⟨17, _⟩ => ⟨S128x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x384, .f32⟩
  | .local _ .vmem, ⟨27, _⟩ => ⟨S128x384, .f32⟩
  | .local _ .vmem, ⟨28, _⟩ => ⟨S1x384, .f32⟩
  | .local _ .vmem, ⟨29, _⟩ => ⟨S1x384, .f32⟩
  | .local _ .vmem, ⟨30, _⟩ => ⟨S128x32, .f32⟩
  | .local _ .vmem, ⟨31, _⟩ => ⟨S1x32, .f32⟩
  | .local _ .vmem, ⟨32, _⟩ => ⟨S2000x32, .f32⟩
  | .local _ .vmem, ⟨33, _⟩ => ⟨S2000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5_0 : Ref sig .tc := ⟨.hbm, 21, rfl⟩
abbrev main_v5_1 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v6 : Ref sig .tc := ⟨.hbm, 45, rfl⟩
abbrev main_cst : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14_0 : Ref sig .tc := ⟨.hbm, 54, rfl⟩
abbrev main_v14_1 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v15 : Ref sig .tc := ⟨.hbm, 78, rfl⟩
abbrev main_cst_0 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg8_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem8_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x32 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  transposes_S384x128_S128x384_1_0 : S384x128.Transposes [1, 0] S128x384
  shapeCasts_S384_S1x384 : S384.ShapeCasts S1x384
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  shapeCasts_S32_S1x32 : S32.ShapeCasts S1x32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x384_S2000x384_1_0_0_1_n_n_wf : DotDims.WF S2000x128 S128x384 S2000x384 [1] [0] [0] [1] [] []
  dot_S2000x128_S128x32_S2000x32_1_0_0_1_n_n_wf : DotDims.WF S2000x128 S128x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x384.size a ≤ S128x384.size a
  hwx2_2 : ∀ i : grid2.Coords, EltTy.bits .f32 = 32 ∨ (Rect.block (s := S128x384) S128x384.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x384.size a ≤ S128x384.size a
  hwx2_3 : ∀ i : grid2.Coords, EltTy.bits .f32 = 32 ∨ (Rect.block (s := S128x384) S128x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x384.size a ≤ S1x384.size a
  hwx2_4 : ∀ i : grid2.Coords, EltTy.bits .f32 = 32 ∨ (Rect.block (s := S1x384) S1x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x384.size a ≤ S1x384.size a
  hwx2_5 : ∀ i : grid2.Coords, EltTy.bits .f32 = 32 ∨ (Rect.block (s := S1x384) S1x384.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x32.size a ≤ S128x32.size a
  hwx2_6 : ∀ i : grid2.Coords, EltTy.bits .f32 = 32 ∨ (Rect.block (s := S128x32) S128x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x32.size a ≤ S50000x32.size a
  hwx2_8 : ∀ i : grid2.Coords, EltTy.bits .f32 = 32 ∨ (Rect.block (s := S50000x32) S2000x32.size (cc2_transform_8 i) (hinb2_8 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v9) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14_0) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v14_1) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v18) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14_0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S128x384.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S128x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S1x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S128x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v23) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v24) S2000x32.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S384x128 : Shape := ⟨2, ![384, 128]⟩
abbrev S384 : Shape := ⟨1, ![384]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S128x384 : Shape := ⟨2, ![128, 384]⟩
abbrev S50000x384 : Shape := ⟨2, ![50000, 384]⟩
abbrev S1x384 : Shape := ⟨2, ![1, 384]⟩
abbrev S50000x32 : Shape := ⟨2, ![50000, 32]⟩
abbrev S1x32 : Shape := ⟨2, ![1, 32]⟩

abbrev nBuf : Space → Nat
  | .hbm => 145
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S384x128, .f32⟩
  | 6 => ⟨S384x128, .f32⟩
  | 7 => ⟨S384, .f32⟩
  | 8 => ⟨S384, .f32⟩
  | 9 => ⟨S128x128, .f32⟩
  | 10 => ⟨S384x128, .f32⟩
  | 11 => ⟨S384x128, .f32⟩
  | 12 => ⟨S384, .f32⟩
  | 13 => ⟨S384, .f32⟩
  | 14 => ⟨S128x32, .f32⟩
  | 15 => ⟨S32, .f32⟩
  | 16 => ⟨S1x800000, .i32⟩
  | 17 => ⟨S800000, .i32⟩
  | 18 => ⟨S1x800000, .i32⟩
  | 19 => ⟨S800000, .i32⟩
  | 20 => ⟨S50000x128, .f32⟩
  | 21 => ⟨S1x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S50000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S128x384, .f32⟩
  | 42 => ⟨S50000x384, .f32⟩
  | 43 => ⟨S1x384, .f32⟩
  | 44 => ⟨S50000x384, .f32⟩
  | 45 => ⟨S50000x384, .f32⟩
  | 46 => ⟨S128x384, .f32⟩
  | 47 => ⟨S50000x384, .f32⟩
  | 48 => ⟨S1x384, .f32⟩
  | 49 => ⟨S50000x384, .f32⟩
  | 50 => ⟨S50000x384, .f32⟩
  | 51 => ⟨S50000x128, .f32⟩
  | 52 => ⟨S50000x128, .f32⟩
  | 53 => ⟨S50000x128, .f32⟩
  | 54 => ⟨S50000x128, .f32⟩
  | 55 => ⟨S50000x128, .f32⟩
  | 56 => ⟨S50000x128, .f32⟩
  | 57 => ⟨S50000x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S50000x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S50000x128, .f32⟩
  | 82 => ⟨S50000x128, .f32⟩
  | 83 => ⟨S50000x128, .f32⟩
  | 84 => ⟨S50000x128, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S_, .f32⟩
  | 95 => ⟨S50000x128, .f32⟩
  | 96 => ⟨S800000x1, .i32⟩
  | 97 => ⟨S50000x128, .f32⟩
  | 98 => ⟨S128x384, .f32⟩
  | 99 => ⟨S50000x384, .f32⟩
  | 100 => ⟨S1x384, .f32⟩
  | 101 => ⟨S50000x384, .f32⟩
  | 102 => ⟨S50000x384, .f32⟩
  | 103 => ⟨S128x384, .f32⟩
  | 104 => ⟨S50000x384, .f32⟩
  | 105 => ⟨S1x384, .f32⟩
  | 106 => ⟨S50000x384, .f32⟩
  | 107 => ⟨S50000x384, .f32⟩
  | 108 => ⟨S50000x128, .f32⟩
  | 109 => ⟨S50000x128, .f32⟩
  | 110 => ⟨S50000x128, .f32⟩
  | 111 => ⟨S50000x128, .f32⟩
  | 112 => ⟨S50000x128, .f32⟩
  | 113 => ⟨S50000x128, .f32⟩
  | 114 => ⟨S50000x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S50000x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S50000x128, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S50000x128, .f32⟩
  | 11 => ⟨S50000x128, .f32⟩
  | 12 => ⟨S50000x128, .f32⟩
  | 13 => ⟨S50000x32, .f32⟩
  | 14 => ⟨S1x32, .f32⟩
  | 15 => ⟨S50000x32, .f32⟩
  | 16 => ⟨S50000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call0_cst : Ref sig .tc := ⟨.hbm, 24, rfl⟩
abbrev main_call0_v0 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_1 : Ref sig .tc := ⟨.hbm, 60, rfl⟩
abbrev main_v39 : Ref sig .tc := ⟨.hbm, 61, rfl⟩
abbrev main_v40 : Ref sig .tc := ⟨.hbm, 62, rfl⟩
abbrev main_cst_2 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_3 : Ref sig .tc := ⟨.hbm, 69, rfl⟩
abbrev main_v46 : Ref sig .tc := ⟨.hbm, 70, rfl⟩
abbrev main_v47 : Ref sig .tc := ⟨.hbm, 71, rfl⟩
abbrev main_cst_4 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_5 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_6 : Ref sig .tc := ⟨.hbm, 85, rfl⟩
abbrev main_v59 : Ref sig .tc := ⟨.hbm, 86, rfl⟩
abbrev main_v60 : Ref sig .tc := ⟨.hbm, 87, rfl⟩
abbrev main_c_7 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_8 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_9 : Ref sig .tc := ⟨.hbm, 117, rfl⟩
abbrev main_v88 : Ref sig .tc := ⟨.hbm, 118, rfl⟩
abbrev main_v89 : Ref sig .tc := ⟨.hbm, 119, rfl⟩
abbrev main_cst_10 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_11 : Ref sig .tc := ⟨.hbm, 126, rfl⟩
abbrev main_v95 : Ref sig .tc := ⟨.hbm, 127, rfl⟩
abbrev main_v96 : Ref sig .tc := ⟨.hbm, 128, rfl⟩
abbrev main_cst_12 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_13 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  transposes_S384x128_S128x384_1_0 : S384x128.Transposes [1, 0] S128x384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x384_S50000x384_1_0_0_1_n_n_wf : DotDims.WF S50000x128 S128x384 S50000x384 [1] [0] [0] [1] [] []
  dot_S50000x128_S128x32_S50000x32_1_0_0_1_n_n_wf : DotDims.WF S50000x128 S128x32 S50000x32 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf

class Facts : Prop extends Facts₀ where

variable [Facts]
-- ==== Proof.PreSrc.lean ====
/-
  What the precondition says about the edge list: its last conjunct is the all-reduce, over the 800000
  edges, of (−50000 ≤ src) ∧ (src < 50000) as signed 32-bit comparisons, src being row 0 of edge_index.
  So under the precondition every source index lies in −50000 … 49999.
-/
import proofs.«424320_j26834955665843_1_alg».proof.Defs
import proofs.«424320_j26834955665843_1_alg».proof.Proof.Gen.KernelIdeal
import proofs.«424320_j26834955665843_1_alg».proof.Proof.Gen.Pre_finite_inputs
import Idealize.ShloMosaic.Lib.ValueIdx
import Idealize.ShloMosaic.Lib.Pipeline.Value
import Idealize.ShloMosaic.Lib.ReduceAll
import Idealize.ShloMosaic.Lib.StableHlo.Predicate

noncomputable section

namespace Cert.KernelIdeal.PreSrc

open Idealize.ShloMosaic Idealize.ShloMosaic.TcCoe Idealize.ShloMosaic.ValueIdx Idealize.SL.Sem Cert.KernelIdeal Cert.KernelIdeal.Facts₀ Cert.KernelIdeal.Facts

/-- Row 0 of edge_index as the kernel's program reads it: the slice, then the reshape to a vector. -/
abbrev srcOf (ei : IVec S2x800000 32) : IVec S800000 32 :=
  shapeCast S800000 (extractStridedSlice S1x800000 ![0, 0] ei slices_S2x800000_S1x800000_0_0) shapeCasts_S1x800000_S800000

/-- A rank-0 shape has one index. -/
instance subsingleton_S_Idx : Subsingleton Cert.Pre_finite_inputs.S_.Idx :=
  ⟨fun a b => funext fun d => d.elim0⟩

/-- The two bounds as signed values. -/
theorem lo_toInt : (4294917296#32 : BitVec 32).toInt = -50000 := by decide
theorem hi_toInt : (50000#32 : BitVec 32).toInt = 50000 := by decide

/-- Under the precondition every source index lies in −50000 … 49999. -/
theorem src_in_range (m : (ℓ : Loc nD τ sig) → Buf (Elt Ideal) ℓ) (hpre : Cert.Pre_KernelIdeal m) (c : Dev nD) (e : Fin 800000) :
    -50000 ≤ (srcOf (m ((c : Thread nD τ).loc main_arg1)) (ix1 e)).toInt
      ∧ (srcOf (m ((c : Thread nD τ).loc main_arg1)) (ix1 e)).toInt < 50000 := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h
  -- the last conjunct: the all-reduce over the edges is 1
  have h83 := (IntOp.andi_eq_one.1 h).2
  -- so the conjunction of the two comparisons is 1 at every edge
  have he := Host.reduce_andi_all _ _ _ _ _ h83 (ix1 e)
  obtain ⟨hge, hlt⟩ := IntOp.andi_eq_one.1 he
  have hge' := IntOp.cmpi_sge.1 hge
  have hlt' := IntOp.cmpi_slt.1 hlt
  constructor
  · rw [← lo_toInt]; exact hge'
  · rw [← hi_toInt]; exact hlt'

end Cert.KernelIdeal.PreSrc

end
-- ==== Proof.Stretches.lean ====
/-
  The five stretches of host operations of the kernel program's @main, one at a time and from ANY buffer
  contents U: which buffers a stretch writes (every other buffer keeps its contents), and what it leaves
  in the buffers the kernel regions read — the source and destination rows of edge_index, the reshaped
  biases, the transposed gate weights, jnp.take's filled gather, and the scatter-add of the gathered rows.
-/
import proofs.«424320_j26834955665843_1_alg».proof.Proof.Gen.KernelIdeal.Frame
import proofs.«424320_j26834955665843_1_alg».proof.Proof.PreSrc
import Idealize.ShloMosaic.Lib.StableHlo.Run
import Idealize.ShloMosaic.Lib.ValueIdx
import Idealize.ShloMosaic.Lib.Pipeline.Value

set_option maxRecDepth 16384

noncomputable section

namespace Cert.KernelIdeal.Fold

open Idealize.ShloMosaic Idealize.ShloMosaic.TcCoe Idealize.ShloMosaic.ValueIdx Idealize.SL.Sem
open Cert.KernelIdeal Cert.KernelIdeal.Gen Idealize.ShloMosaic.StableHlo

/-! ## The host stretches: what each writes, and what it leaves alone -/

section Stretches

variable {F : FTy → Type} [FloatOps F]
variable (U : Valuation τ sig (Elt F))

/-- The buffers each stretch writes. -/
abbrev wr0 : List (Ref sig .tc) := [main_v0, main_v1, main_v2, main_v3, main_v4]
abbrev wr1 : List (Ref sig .tc) := [main_call0_c, main_call0_v0, main_call0_v1, main_call0_c_0, main_call0_v2, main_call0_v3,
  main_call0_v4, main_call0_v5, main_call0_c_1, main_call0_c_2, main_call0_v6, main_call0_v7, main_call0_v8, main_call0_v9,
  main_call0_v10, main_call0_v11, main_call0_c_3, main_call0_v12, main_call0_v13, main_call0_v14, main_call0_cst, main_call0_v15, main_v6]
abbrev wr11 : List (Ref sig .tc) := [main_cst, main_v7, main_v8, main_v9, main_v10, main_v11, main_v12, main_v13]
abbrev wr2 : List (Ref sig .tc) := [main_call1_c, main_call1_v0, main_call1_v1, main_call1_c_0, main_call1_v2, main_call1_v3,
  main_call1_v4, main_call1_v5, main_call1_c_1, main_call1_c_2, main_call1_v6, main_call1_v7, main_call1_v8, main_call1_v9,
  main_call1_v10, main_call1_v11, main_call1_c_3, main_call1_v12, main_call1_v13, main_call1_v14, main_call1_cst, main_call1_v15, main_v15]
abbrev wr21 : List (Ref sig .tc) := [main_cst_0, main_v16, main_v17, main_v18, main_v19, main_v20, main_v21, main_v22, main_v23]

theorem writes0 : (hostOps0 : List (HloOp τ sig (Elt F))).Forall fun op => op.writes ⊆ (wr0.map (Proc.devRef (τ := τ) .tc)).toFinset := by
  simp only [hostOps0, List.Forall, nullary_writes, unary_writes, binary_writes, ternary_writes, reshape_writes,
    Finset.singleton_subset_iff, List.mem_toFinset, List.mem_map]
  repeat' apply And.intro
  all_goals exact ⟨_, by decide, rfl⟩
theorem writes1 : (hostOps1 : List (HloOp τ sig (Elt F))).Forall fun op => op.writes ⊆ (wr1.map (Proc.devRef (τ := τ) .tc)).toFinset := by
  simp only [hostOps1, List.Forall, nullary_writes, unary_writes, binary_writes, ternary_writes, reshape_writes,
    Finset.singleton_subset_iff, List.mem_toFinset, List.mem_map]
  repeat' apply And.intro
  all_goals exact ⟨_, by decide, rfl⟩
theorem writes11 : (hostOps1_1 : List (HloOp τ sig (Elt F))).Forall fun op => op.writes ⊆ (wr11.map (Proc.devRef (τ := τ) .tc)).toFinset := by
  simp only [hostOps1_1, List.Forall, nullary_writes, unary_writes, binary_writes, ternary_writes, reshape_writes,
    Finset.singleton_subset_iff, List.mem_toFinset, List.mem_map]
  repeat' apply And.intro
  all_goals exact ⟨_, by decide, rfl⟩
theorem writes2 : (hostOps2 : List (HloOp τ sig (Elt F))).Forall fun op => op.writes ⊆ (wr2.map (Proc.devRef (τ := τ) .tc)).toFinset := by
  simp only [hostOps2, List.Forall, nullary_writes, unary_writes, binary_writes, ternary_writes, reshape_writes,
    Finset.singleton_subset_iff, List.mem_toFinset, List.mem_map]
  repeat' apply And.intro
  all_goals exact ⟨_, by decide, rfl⟩
theorem writes21 : (hostOps2_1 : List (HloOp τ sig (Elt F))).Forall fun op => op.writes ⊆ (wr21.map (Proc.devRef (τ := τ) .tc)).toFinset := by
  simp only [hostOps2_1, List.Forall, nullary_writes, unary_writes, binary_writes, ternary_writes, reshape_writes,
    Finset.singleton_subset_iff, List.mem_toFinset, List.mem_map]
  repeat' apply And.intro
  all_goals exact ⟨_, by decide, rfl⟩

/-- A buffer a stretch does not write keeps its contents. -/
theorem keep0 (r : Ref sig .tc) (hr : r ∉ wr0) : after hostOps0 U (Proc.devRef .tc r) = U (Proc.devRef .tc r) :=
  after_of_writes_sub hostOps0 U writes0 hr
theorem keep1 (r : Ref sig .tc) (hr : r ∉ wr1) : after hostOps1 U (Proc.devRef .tc r) = U (Proc.devRef .tc r) :=
  after_of_writes_sub hostOps1 U writes1 hr
theorem keep11 (r : Ref sig .tc) (hr : r ∉ wr11) : after hostOps1_1 U (Proc.devRef .tc r) = U (Proc.devRef .tc r) :=
  after_of_writes_sub hostOps1_1 U writes11 hr
theorem keep2 (r : Ref sig .tc) (hr : r ∉ wr2) : after hostOps2 U (Proc.devRef .tc r) = U (Proc.devRef .tc r) :=
  after_of_writes_sub hostOps2 U writes2 hr
theorem keep21 (r : Ref sig .tc) (hr : r ∉ wr21) : after hostOps2_1 U (Proc.devRef .tc r) = U (Proc.devRef .tc r) :=
  after_of_writes_sub hostOps2_1 U writes21 hr

/-- Row 1 of edge_index (the destinations), as both programs read it. -/
abbrev dstOf (ei : IVec S2x800000 32) : IVec S800000 32 :=
  shapeCast S800000 (extractStridedSlice S1x800000 ![1, 0] ei slices_S2x800000_S1x800000_1_0) shapeCasts_S1x800000_S800000

/-- The scatter-add of the gathered rows at the destinations into zeros (segment_sum). -/
abbrev aggOf (dst : IVec S800000 32) (rows : FVec F S800000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst) rows

theorem s0_v1 : after hostOps0 U (Proc.devRef .tc main_v1) = Cert.KernelIdeal.PreSrc.srcOf (U (Proc.devRef .tc main_arg1)) := by
  simp only [hostOps0]; after_results; all_goals rfl
theorem s0_v3 : after hostOps0 U (Proc.devRef .tc main_v3) = dstOf (U (Proc.devRef .tc main_arg1)) := by
  simp only [hostOps0]; after_results; all_goals rfl
theorem s0_v4 : after hostOps0 U (Proc.devRef .tc main_v4) = shapeCast S1x128 (U (Proc.devRef .tc main_arg3)) shapeCasts_S128_S1x128 := by
  simp only [hostOps0]; after_results; all_goals rfl

theorem s11_v9 : after hostOps1_1 U (Proc.devRef .tc main_v9)
    = aggOf (U (Proc.devRef .tc main_v3)) (U (Proc.devRef .tc main_v6)) := by
  simp only [hostOps1_1]; after_results; all_goals rfl
theorem s11_v10 : after hostOps1_1 U (Proc.devRef .tc main_v10)
    = transpose S128x384 [1, 0] (U (Proc.devRef .tc main_arg5)) transposes_S384x128_S128x384_1_0 := by
  simp only [hostOps1_1]; after_results; all_goals rfl
theorem s11_v11 : after hostOps1_1 U (Proc.devRef .tc main_v11)
    = transpose S128x384 [1, 0] (U (Proc.devRef .tc main_arg6)) transposes_S384x128_S128x384_1_0 := by
  simp only [hostOps1_1]; after_results; all_goals rfl
theorem s11_v12 : after hostOps1_1 U (Proc.devRef .tc main_v12) = shapeCast S1x384 (U (Proc.devRef .tc main_arg7)) shapeCasts_S384_S1x384 := by
  simp only [hostOps1_1]; after_results; all_goals rfl
theorem s11_v13 : after hostOps1_1 U (Proc.devRef .tc main_v13) = shapeCast S1x384 (U (Proc.devRef .tc main_arg8)) shapeCasts_S384_S1x384 := by
  simp only [hostOps1_1]; after_results; all_goals rfl

theorem s21_v18 : after hostOps2_1 U (Proc.devRef .tc main_v18)
    = aggOf (U (Proc.devRef .tc main_v3)) (U (Proc.devRef .tc main_v15)) := by
  simp only [hostOps2_1]; after_results; all_goals rfl
theorem s21_v19 : after hostOps2_1 U (Proc.devRef .tc main_v19)
    = transpose S128x384 [1, 0] (U (Proc.devRef .tc main_arg10)) transposes_S384x128_S128x384_1_0 := by
  simp only [hostOps2_1]; after_results; all_goals rfl
theorem s21_v20 : after hostOps2_1 U (Proc.devRef .tc main_v20)
    = transpose S128x384 [1, 0] (U (Proc.devRef .tc main_arg11)) transposes_S384x128_S128x384_1_0 := by
  simp only [hostOps2_1]; after_results; all_goals rfl
theorem s21_v21 : after hostOps2_1 U (Proc.devRef .tc main_v21) = shapeCast S1x384 (U (Proc.devRef .tc main_arg12)) shapeCasts_S384_S1x384 := by
  simp only [hostOps2_1]; after_results; all_goals rfl
theorem s21_v22 : after hostOps2_1 U (Proc.devRef .tc main_v22) = shapeCast S1x384 (U (Proc.devRef .tc main_arg13)) shapeCasts_S384_S1x384 := by
  simp only [hostOps2_1]; after_results; all_goals rfl
theorem s21_v23 : after hostOps2_1 U (Proc.devRef .tc main_v23) = shapeCast S1x32 (U (Proc.devRef .tc main_arg15)) shapeCasts_S32_S1x32 := by
  simp only [hostOps2_1]; after_results; all_goals rfl

end Stretches

end Cert.KernelIdeal.Fold

end
-- ==== Proof.Take.lean ====
/-
  jnp.take in its default mode against plain indexing. Both programs first wrap a negative index
  (src < 0 ↦ src + 50000) and read the message array by a gather at the wrapped index. The kernel's
  jnp.take then keeps a gathered row only where the wrapped index lies in 0 … 49999 and fills the other
  rows with the NaN word. Where every source index satisfies −50000 ≤ src < 50000 the wrapped index is
  always in range, the mask is all ones, and the filled gather IS the plain gather.
-/
import proofs.«424320_j26834955665843_1_alg».proof.Proof.Gen.KernelIdeal
import Idealize.ShloMosaic.Lib.ValueIdx
import Idealize.ShloMosaic.Lib.Pipeline.Value
import Idealize.ShloMosaic.Lib.ReduceAll
import Idealize.ShloMosaic.Lib.StableHlo.Predicate

noncomputable section

namespace Cert.KernelIdeal.Take

open Idealize.ShloMosaic Idealize.ShloMosaic.ValueIdx Cert.KernelIdeal Cert.KernelIdeal.Facts₀ Cert.KernelIdeal.Facts

variable {F : FTy → Type} [FloatOps F]

/-- The source indices with negative ones wrapped by +50000, as a column of start indices for the gather. -/
def wrapIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Per edge: is the wrapped index within 0 … 49999? (an all-reduce of the one-column test). -/
def inRange (idx : IVec S800000x1 32) : IVec S800000 1 :=
  Host.reduce IntOp.andi
    (andi (cmpi .sge idx (broadcastInDim S800000x1 ![] bcast_S_S800000x1 (constantI S_ 32 0#32)))
      (cmpi .sle idx (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- jnp.take's result: the gathered rows where the index is in range, the NaN word elsewhere. -/
def takeFill (m : FVec F S50000x128 .f32) (src : IVec S800000 32) : FVec F S800000x128 .f32 :=
  select (broadcastInDim S800000x128 ![0] bcast_S800000_S800000x128_0 (inRange (wrapIdx src)))
    (Host.gather gather_S50000x128_S800000x1_S800000x128_1_0_n_n_0_1_1128 m (wrapIdx src))
    (broadcastInDim S800000x128 ![] bcast_S_S800000x128 (constant S_ .f32 0x7FC00000#32))

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- The wrapped word of a source index in −50000 … 49999 lies in 0 … 49999: below zero the sum with 50000 does not
    overflow, from zero on the word is kept. -/
theorem wrap_range (x : BitVec 32) (h1 : -50000 ≤ x.toInt) (h2 : x.toInt < 50000) :
    0 ≤ (Scalar.select (IntOp.cmpi .slt x 0#32) (IntOp.addi x 50000#32) x).toInt
      ∧ (Scalar.select (IntOp.cmpi .slt x 0#32) (IntOp.addi x 50000#32) x).toInt ≤ 49999 := by
  have h0 : (0#32 : BitVec 32).toInt = 0 := by decide
  by_cases hx : x.toInt < 0
  · have hc : IntOp.cmpi .slt x 0#32 = 1#1 := by
      unfold IntOp.cmpi
      simp only [BitVec.slt, h0, decide_eq_true hx]
      rfl
    rw [hc, select_one]
    have hs : (IntOp.addi x 50000#32).toInt = x.toInt + 50000 := by
      unfold IntOp.addi
      rw [BitVec.toInt_add, show (50000#32 : BitVec 32).toInt = 50000 from by decide, Int.bmod_def]
      omega
    rw [hs]; omega
  · have hc : IntOp.cmpi .slt x 0#32 = 0#1 := by
      unfold IntOp.cmpi
      simp only [BitVec.slt, h0, decide_eq_false hx]
      rfl
    rw [hc, select_zero]
    omega

/-- A word in 0 … 49999 passes both bound tests. -/
theorem bounds_one (w : BitVec 32) (h1 : 0 ≤ w.toInt) (h2 : w.toInt ≤ 49999) :
    IntOp.andi (IntOp.cmpi .sge w 0#32) (IntOp.cmpi .sle w 49999#32) = 1#1 := by
  have h0 : (0#32 : BitVec 32).toInt = 0 := by decide
  have h9 : (49999#32 : BitVec 32).toInt = 49999 := by decide
  refine IntOp.andi_eq_one.2 ⟨?_, ?_⟩
  · unfold IntOp.cmpi
    simp only [BitVec.sle, h0, decide_eq_true h1]
    rfl
  · unfold IntOp.cmpi
    simp only [BitVec.sle, h9, decide_eq_true h2]
    rfl

/-- The wrapped index at edge `p` (its one column `q`) is the wrapped word of the source index at `p`. -/
theorem wrapIdx_apply (src : IVec S800000 32) (p : Fin 800000) (q : Fin 1) :
    wrapIdx src (ix2 p q)
      = Scalar.select (IntOp.cmpi .slt (src (ix1 p)) 0#32) (IntOp.addi (src (ix1 p)) 50000#32) (src (ix1 p)) := by
  unfold wrapIdx
  refine (broadcastInDim_apply _ _ _ (ix2 p q) (ix1 p) ?_).trans rfl
  intro a
  match a with
  | ⟨0, _⟩ => rfl

/-- With every source index in −50000 … 49999 the range mask is 1 at every edge. -/
theorem inRange_wrapIdx (src : IVec S800000 32)
    (h : ∀ e : Fin 800000, -50000 ≤ (src (ix1 e)).toInt ∧ (src (ix1 e)).toInt < 50000) (j : S800000.Idx) :
    inRange (wrapIdx src) j = 1#1 := by
  unfold inRange
  rw [Host.reduce_eq_foldl]
  refine foldl_andi_one _ (fun i => ?_) _
  obtain ⟨p, q, rfl⟩ : ∃ (p : Fin 800000) (q : Fin 1), i = ix2 p q := ⟨i 0, i 1, eq_ix2 i⟩
  have hw := wrap_range (src (ix1 p)) (h p).1 (h p).2
  rw [← wrapIdx_apply src p q] at hw
  exact bounds_one _ hw.1 hw.2

/-- With every source index in −50000 … 49999 nothing is filled: jnp.take is the plain gather. -/
theorem takeFill_eq_gather (m : FVec F S50000x128 .f32) (src : IVec S800000 32)
    (h : ∀ e : Fin 800000, -50000 ≤ (src (ix1 e)).toInt ∧ (src (ix1 e)).toInt < 50000) :
    takeFill m src = Host.gather gather_S50000x128_S800000x1_S800000x128_1_0_n_n_0_1_1128 m (wrapIdx src) := by
  funext i
  obtain ⟨p, q, rfl⟩ : ∃ (p : Fin 800000) (q : Fin 128), i = ix2 p q := ⟨i 0, i 1, eq_ix2 i⟩
  unfold takeFill
  rw [select_apply]
  have hm : broadcastInDim S800000x128 ![0] bcast_S800000_S800000x128_0 (inRange (wrapIdx src)) (ix2 p q) = 1#1 := by
    refine (broadcastInDim_apply _ _ _ (ix2 p q) (ix1 p) ?_).trans (inRange_wrapIdx src h _)
    intro a
    match a with
    | ⟨0, _⟩ => rfl
  rw [hm, select_one]

end Cert.KernelIdeal.Take

end
-- ==== Proof.StretchTake0.lean ====
/-
  The 23 host operations of the first jnp.take, from any buffer contents U, in three short pieces:
  (A) eight operations wrap the negative source indices (src < 0 ↦ src + 50000) into a column of start indices;
  (B) ten operations test each wrapped index against 0 … 49999;
  (C) five operations gather the message rows at the wrapped indices and keep a row where the test holds,
      the NaN word elsewhere.
  Run one after the other they leave, in the buffer the scatter-add reads, the filled gather Take.takeFill
  of the message array at the source row.
-/
import proofs.«424320_j26834955665843_1_alg».proof.Proof.Gen.KernelIdeal.Frame
import proofs.«424320_j26834955665843_1_alg».proof.Proof.Take
import Idealize.ShloMosaic.Lib.StableHlo.Run

set_option maxRecDepth 16384

noncomputable section

namespace Cert.KernelIdeal.Fold.Take0

open Idealize.ShloMosaic Idealize.ShloMosaic.TcCoe Idealize.SL.Sem
open Cert.KernelIdeal Cert.KernelIdeal.Gen Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- (A) the wrap of the source indices. -/
abbrev opsA : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S800000, .i32⟩) (broadcastInDim S800000 ![] bcast_S_S800000),
    StableHlo.TRef.binary (.of main_v1 : StableHlo.TRef sig ⟨S800000, .i32⟩) (.of main_call0_v0 : StableHlo.TRef sig ⟨S800000, .i32⟩) (.of main_call0_v1 : StableHlo.TRef sig ⟨S800000, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S800000, .i32⟩) (broadcastInDim S800000 ![] bcast_S_S800000),
    StableHlo.TRef.binary (.of main_v1 : StableHlo.TRef sig ⟨S800000, .i32⟩) (.of main_call0_v2 : StableHlo.TRef sig ⟨S800000, .i32⟩) (.of main_call0_v3 : StableHlo.TRef sig ⟨S800000, .i32⟩) addi,
    StableHlo.TRef.ternary (.of main_call0_v1 : StableHlo.TRef sig ⟨S800000, .i1⟩) (.of main_call0_v3 : StableHlo.TRef sig ⟨S800000, .i32⟩) (.of main_v1 : StableHlo.TRef sig ⟨S800000, .i32⟩) (.of main_call0_v4 : StableHlo.TRef sig ⟨S800000, .i32⟩) select,
    StableHlo.TRef.unary main_call0_call0.v0 (.of main_call0_v5 : StableHlo.TRef sig ⟨S800000x1, .i32⟩) (broadcastInDim S800000x1 ![0] bcast_S800000_S800000x1_0) ]
/-- (B) the range test. -/
abbrev opsB : List (HloOp τ sig (Elt F)) :=
  [ StableHlo.TRef.nullary (.of main_call0_c_1 : StableHlo.TRef sig ⟨S1, .i32⟩) (constantI S1 32 49999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S800000x1, .i32⟩) (broadcastInDim S800000x1 ![] bcast_S_S800000x1),
    StableHlo.TRef.binary (.of main_call0_v5 : StableHlo.TRef sig ⟨S800000x1, .i32⟩) (.of main_call0_v6 : StableHlo.TRef sig ⟨S800000x1, .i32⟩) (.of main_call0_v7 : StableHlo.TRef sig ⟨S800000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S800000x1, .i32⟩) (broadcastInDim S800000x1 ![0, 1] bcast_S1x1_S800000x1_0_1),
    StableHlo.TRef.binary (.of main_call0_v5 : StableHlo.TRef sig ⟨S800000x1, .i32⟩) (.of main_call0_v9 : StableHlo.TRef sig ⟨S800000x1, .i32⟩) (.of main_call0_v10 : StableHlo.TRef sig ⟨S800000x1, .i1⟩) (cmpi .sle),
    StableHlo.TRef.binary (.of main_call0_v7 : StableHlo.TRef sig ⟨S800000x1, .i1⟩) (.of main_call0_v10 : StableHlo.TRef sig ⟨S800000x1, .i1⟩) (.of main_call0_v11 : StableHlo.TRef sig ⟨S800000x1, .i1⟩) andi,
    StableHlo.TRef.nullary (.of main_call0_c_3 : StableHlo.TRef sig ⟨S_, .i1⟩) (constantI S_ 1 1#1),
    StableHlo.TRef.binary (.of main_call0_v11 : StableHlo.TRef sig ⟨S800000x1, .i1⟩) (.of main_call0_c_3 : StableHlo.TRef sig ⟨S_, .i1⟩) (.of main_call0_v12 : StableHlo.TRef sig ⟨S800000, .i1⟩) (fun x v => Host.reduce IntOp.andi x v reducesTo_S800000x1_S800000_d1 h_S_) ]
/-- (C) the gather and the fill. -/
abbrev opsC : List (HloOp τ sig (Elt F)) :=
  [ StableHlo.TRef.binary (.of main_v5_1 : StableHlo.TRef sig ⟨S50000x128, .f32⟩) (.of main_call0_v5 : StableHlo.TRef sig ⟨S800000x1, .i32⟩) (.of main_call0_v13 : StableHlo.TRef sig ⟨S800000x128, .f32⟩) (fun x i => Host.gather gather_S50000x128_S800000x1_S800000x128_1_0_n_n_0_1_1128 x i),
    StableHlo.TRef.unary (.of main_call0_v12 : StableHlo.TRef sig ⟨S800000, .i1⟩) (.of main_call0_v14 : StableHlo.TRef sig ⟨S800000x128, .i1⟩) (broadcastInDim S800000x128 ![0] bcast_S800000_S800000x128_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S800000x128, .f32⟩) (broadcastInDim S800000x128 ![] bcast_S_S800000x128),
    StableHlo.TRef.ternary (.of main_call0_v14 : StableHlo.TRef sig ⟨S800000x128, .i1⟩) (.of main_call0_v13 : StableHlo.TRef sig ⟨S800000x128, .f32⟩) (.of main_call0_v15 : StableHlo.TRef sig ⟨S800000x128, .f32⟩) (.of main_v6 : StableHlo.TRef sig ⟨S800000x128, .f32⟩) select ]

theorem ops_eq : (hostOps1 : List (HloOp τ sig (Elt F))) = opsA ++ (opsB ++ opsC) := rfl

variable (U : Valuation τ sig (Elt F))

theorem A_idx : after opsA U (Proc.devRef .tc main_call0_v5) = Cert.KernelIdeal.Take.wrapIdx (U (Proc.devRef .tc main_v1)) := by
  simp only [opsA]; after_results_simp
  simp only [TRef.toBuf, TRef.ofBuf, cast_eq]
  unfold Cert.KernelIdeal.Take.wrapIdx
  rfl
theorem A_msg : after opsA U (Proc.devRef .tc main_v5_1) = U (Proc.devRef .tc main_v5_1) := by
  simp only [opsA]; after_results_simp

theorem B_mask : after opsB U (Proc.devRef .tc main_call0_v12) = Cert.KernelIdeal.Take.inRange (U (Proc.devRef .tc main_call0_v5)) := by
  simp only [opsB]; after_results_simp
  simp only [TRef.toBuf, TRef.ofBuf, cast_eq]
  unfold Cert.KernelIdeal.Take.inRange
  rfl
theorem B_idx : after opsB U (Proc.devRef .tc main_call0_v5) = U (Proc.devRef .tc main_call0_v5) := by
  simp only [opsB]; after_results_simp
theorem B_msg : after opsB U (Proc.devRef .tc main_v5_1) = U (Proc.devRef .tc main_v5_1) := by
  simp only [opsB]; after_results_simp

theorem C_out : after opsC U (Proc.devRef .tc main_v6)
    = select (broadcastInDim S800000x128 ![0] bcast_S800000_S800000x128_0 (U (Proc.devRef .tc main_call0_v12)))
        (Host.gather gather_S50000x128_S800000x1_S800000x128_1_0_n_n_0_1_1128 (U (Proc.devRef .tc main_v5_1)) (U (Proc.devRef .tc main_call0_v5)))
        (broadcastInDim S800000x128 ![] bcast_S_S800000x128 (constant S_ .f32 0x7FC00000#32)) := by
  simp only [opsC]; after_results_simp
  simp only [TRef.toBuf, TRef.ofBuf, cast_eq]

/-- The whole stretch: jnp.take's filled gather of the message array at the source row. -/
theorem take_out : after hostOps1 U (Proc.devRef .tc main_v6)
    = Cert.KernelIdeal.Take.takeFill (F := F) (U (Proc.devRef .tc main_v5_1)) (U (Proc.devRef .tc main_v1)) := by
  rw [ops_eq, after_append, after_append, C_out, B_mask, B_idx, B_msg, A_idx, A_msg]
  rfl

end Cert.KernelIdeal.Fold.Take0

end
-- ==== Proof.StretchTake1.lean ====
/-
  The 23 host operations of the second jnp.take, from any buffer contents U, in three short pieces:
  (A) eight operations wrap the negative source indices (src < 0 ↦ src + 50000) into a column of start indices;
  (B) ten operations test each wrapped index against 0 … 49999;
  (C) five operations gather the message rows at the wrapped indices and keep a row where the test holds,
      the NaN word elsewhere.
  Run one after the other they leave, in the buffer the scatter-add reads, the filled gather Take.takeFill
  of the message array at the source row.
-/
import proofs.«424320_j26834955665843_1_alg».proof.Proof.Gen.KernelIdeal.Frame
import proofs.«424320_j26834955665843_1_alg».proof.Proof.Take
import Idealize.ShloMosaic.Lib.StableHlo.Run

set_option maxRecDepth 16384

noncomputable section

namespace Cert.KernelIdeal.Fold.Take1

open Idealize.ShloMosaic Idealize.ShloMosaic.TcCoe Idealize.SL.Sem
open Cert.KernelIdeal Cert.KernelIdeal.Gen Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- (A) the wrap of the source indices. -/
abbrev opsA : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S800000, .i32⟩) (broadcastInDim S800000 ![] bcast_S_S800000),
    StableHlo.TRef.binary (.of main_v1 : StableHlo.TRef sig ⟨S800000, .i32⟩) (.of main_call1_v0 : StableHlo.TRef sig ⟨S800000, .i32⟩) (.of main_call1_v1 : StableHlo.TRef sig ⟨S800000, .i1⟩) (cmpi .slt),
    StableHlo.TRef.nullary (.of main_call1_c_0 : StableHlo.TRef sig ⟨S_, .i32⟩) (constantI S_ 32 50000#32),
    StableHlo.TRef.unary (.of main_call1_c_0 : StableHlo.TRef sig ⟨S_, .i32⟩) (.of main_call1_v2 : StableHlo.TRef sig ⟨S800000, .i32⟩) (broadcastInDim S800000 ![] bcast_S_S800000),
    StableHlo.TRef.binary (.of main_v1 : StableHlo.TRef sig ⟨S800000, .i32⟩) (.of main_call1_v2 : StableHlo.TRef sig ⟨S800000, .i32⟩) (.of main_call1_v3 : StableHlo.TRef sig ⟨S800000, .i32⟩) addi,
    StableHlo.TRef.ternary (.of main_call1_v1 : StableHlo.TRef sig ⟨S800000, .i1⟩) (.of main_call1_v3 : StableHlo.TRef sig ⟨S800000, .i32⟩) (.of main_v1 : StableHlo.TRef sig ⟨S800000, .i32⟩) (.of main_call1_v4 : StableHlo.TRef sig ⟨S800000, .i32⟩) select,
    StableHlo.TRef.unary main_call1_call0.v0 (.of main_call1_v5 : StableHlo.TRef sig ⟨S800000x1, .i32⟩) (broadcastInDim S800000x1 ![0] bcast_S800000_S800000x1_0) ]
/-- (B) the range test. -/
abbrev opsB : List (HloOp τ sig (Elt F)) :=
  [ StableHlo.TRef.nullary (.of main_call1_c_1 : StableHlo.TRef sig ⟨S1, .i32⟩) (constantI S1 32 49999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S800000x1, .i32⟩) (broadcastInDim S800000x1 ![] bcast_S_S800000x1),
    StableHlo.TRef.binary (.of main_call1_v5 : StableHlo.TRef sig ⟨S800000x1, .i32⟩) (.of main_call1_v6 : StableHlo.TRef sig ⟨S800000x1, .i32⟩) (.of main_call1_v7 : StableHlo.TRef sig ⟨S800000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S800000x1, .i32⟩) (broadcastInDim S800000x1 ![0, 1] bcast_S1x1_S800000x1_0_1),
    StableHlo.TRef.binary (.of main_call1_v5 : StableHlo.TRef sig ⟨S800000x1, .i32⟩) (.of main_call1_v9 : StableHlo.TRef sig ⟨S800000x1, .i32⟩) (.of main_call1_v10 : StableHlo.TRef sig ⟨S800000x1, .i1⟩) (cmpi .sle),
    StableHlo.TRef.binary (.of main_call1_v7 : StableHlo.TRef sig ⟨S800000x1, .i1⟩) (.of main_call1_v10 : StableHlo.TRef sig ⟨S800000x1, .i1⟩) (.of main_call1_v11 : StableHlo.TRef sig ⟨S800000x1, .i1⟩) andi,
    StableHlo.TRef.nullary (.of main_call1_c_3 : StableHlo.TRef sig ⟨S_, .i1⟩) (constantI S_ 1 1#1),
    StableHlo.TRef.binary (.of main_call1_v11 : StableHlo.TRef sig ⟨S800000x1, .i1⟩) (.of main_call1_c_3 : StableHlo.TRef sig ⟨S_, .i1⟩) (.of main_call1_v12 : StableHlo.TRef sig ⟨S800000, .i1⟩) (fun x v => Host.reduce IntOp.andi x v reducesTo_S800000x1_S800000_d1 h_S_) ]
/-- (C) the gather and the fill. -/
abbrev opsC : List (HloOp τ sig (Elt F)) :=
  [ StableHlo.TRef.binary (.of main_v14_1 : StableHlo.TRef sig ⟨S50000x128, .f32⟩) (.of main_call1_v5 : StableHlo.TRef sig ⟨S800000x1, .i32⟩) (.of main_call1_v13 : StableHlo.TRef sig ⟨S800000x128, .f32⟩) (fun x i => Host.gather gather_S50000x128_S800000x1_S800000x128_1_0_n_n_0_1_1128 x i),
    StableHlo.TRef.unary (.of main_call1_v12 : StableHlo.TRef sig ⟨S800000, .i1⟩) (.of main_call1_v14 : StableHlo.TRef sig ⟨S800000x128, .i1⟩) (broadcastInDim S800000x128 ![0] bcast_S800000_S800000x128_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S800000x128, .f32⟩) (broadcastInDim S800000x128 ![] bcast_S_S800000x128),
    StableHlo.TRef.ternary (.of main_call1_v14 : StableHlo.TRef sig ⟨S800000x128, .i1⟩) (.of main_call1_v13 : StableHlo.TRef sig ⟨S800000x128, .f32⟩) (.of main_call1_v15 : StableHlo.TRef sig ⟨S800000x128, .f32⟩) (.of main_v15 : StableHlo.TRef sig ⟨S800000x128, .f32⟩) select ]

theorem ops_eq : (hostOps2 : List (HloOp τ sig (Elt F))) = opsA ++ (opsB ++ opsC) := rfl

variable (U : Valuation τ sig (Elt F))

theorem A_idx : after opsA U (Proc.devRef .tc main_call1_v5) = Cert.KernelIdeal.Take.wrapIdx (U (Proc.devRef .tc main_v1)) := by
  simp only [opsA]; after_results_simp
  simp only [TRef.toBuf, TRef.ofBuf, cast_eq]
  unfold Cert.KernelIdeal.Take.wrapIdx
  rfl
theorem A_msg : after opsA U (Proc.devRef .tc main_v14_1) = U (Proc.devRef .tc main_v14_1) := by
  simp only [opsA]; after_results_simp

theorem B_mask : after opsB U (Proc.devRef .tc main_call1_v12) = Cert.KernelIdeal.Take.inRange (U (Proc.devRef .tc main_call1_v5)) := by
  simp only [opsB]; after_results_simp
  simp only [TRef.toBuf, TRef.ofBuf, cast_eq]
  unfold Cert.KernelIdeal.Take.inRange
  rfl
theorem B_idx : after opsB U (Proc.devRef .tc main_call1_v5) = U (Proc.devRef .tc main_call1_v5) := by
  simp only [opsB]; after_results_simp
theorem B_msg : after opsB U (Proc.devRef .tc main_v14_1) = U (Proc.devRef .tc main_v14_1) := by
  simp only [opsB]; after_results_simp

theorem C_out : after opsC U (Proc.devRef .tc main_v15)
    = select (broadcastInDim S800000x128 ![0] bcast_S800000_S800000x128_0 (U (Proc.devRef .tc main_call1_v12)))
        (Host.gather gather_S50000x128_S800000x1_S800000x128_1_0_n_n_0_1_1128 (U (Proc.devRef .tc main_v14_1)) (U (Proc.devRef .tc main_call1_v5)))
        (broadcastInDim S800000x128 ![] bcast_S_S800000x128 (constant S_ .f32 0x7FC00000#32)) := by
  simp only [opsC]; after_results_simp
  simp only [TRef.toBuf, TRef.ofBuf, cast_eq]

/-- The whole stretch: jnp.take's filled gather of the message array at the source row. -/
theorem take_out : after hostOps2 U (Proc.devRef .tc main_v15)
    = Cert.KernelIdeal.Take.takeFill (F := F) (U (Proc.devRef .tc main_v14_1)) (U (Proc.devRef .tc main_v1)) := by
  rw [ops_eq, after_append, after_append, C_out, B_mask, B_idx, B_msg, A_idx, A_msg]
  rfl

end Cert.KernelIdeal.Fold.Take1

end
-- ==== Proof.Spec.lean ====
/-
  The mathematics both programs compute, one row at a time, on the extended reals.
  Every stage of the network is ROW-LOCAL: row r of a stage's result depends only on row r of its
  inputs (and on the weights). So each stage is written here as a function of ONE input row
  (a function Fin 128 → EReal) giving one entry of the output row:

  * lin x W j          = Σ_k x k · W k j                       (one column of a dense layer)
  * h0At x Win b j     = max (lin x Win j + b j) 0             (input projection, bias, ReLU)
  * gruAt agg h … j    = the GRU update of the hidden row h by the aggregated message row agg:
        gi = agg·WihT + bih, gh = h·WhhT + bhh  (rows of width 384 = three gates of width 128)
        r = σ(gi[j] + gh[j]),  z = σ(gi[128+j] + gh[128+j]),  n = tanh(gi[256+j] + r · gh[256+j]),
        (1 − z) · n + z · h j,  with σ a = 1 / (1 + e^(−a))
  * outAt h Wout b j   = lin h Wout j + b j                    (output projection)
  The literal 1.0 of (1 − z) is kept as its word: both programs carry the same word there.
-/
import Idealize.ShloMosaic.PureOps.Ideal
import Idealize.ShloMosaic.Lib.ValueIdx

noncomputable section

namespace Cert.Spec

open Idealize.ShloMosaic

/-- The f32 words for 1.0 and 0.0, read at the ideal instance. -/
abbrev one32 : EReal := Ideal.ofBits .f32 0x3F800000#32
abbrev zero32 : EReal := Ideal.ofBits .f32 0x00000000#32

/-- Column j of the row x times the matrix W. -/
def lin {K J : Nat} (x : Fin K → EReal) (W : Fin K → Fin J → EReal) (j : Fin J) : EReal :=
  ∑ k : Fin K, x k * W k j

/-- Entry j of relu (x·Win + b). -/
def h0At (x : Fin 128 → EReal) (Win : Fin 128 → Fin 128 → EReal) (b : Fin 128 → EReal) (j : Fin 128) : EReal :=
  max (lin x Win j + b j) zero32

/-- The three gate columns that entry j of the hidden row reads in a row of width 384. -/
def colR (j : Fin 128) : Fin 384 := ⟨0 + j.val, by have := j.isLt; omega⟩
def colZ (j : Fin 128) : Fin 384 := ⟨128 + j.val, by have := j.isLt; omega⟩
def colN (j : Fin 128) : Fin 384 := ⟨256 + j.val, by have := j.isLt; omega⟩

/-- Entry j of the GRU update of the hidden row h by the message row agg (weights already transposed:
    wihT k q is the weight from input k to gate column q). -/
def gruAt (agg h : Fin 128 → EReal) (wihT whhT : Fin 128 → Fin 384 → EReal) (bih bhh : Fin 384 → EReal)
    (j : Fin 128) : EReal :=
  (one32 - Ideal.logistic ((lin agg wihT (colZ j) + bih (colZ j)) + (lin h whhT (colZ j) + bhh (colZ j))))
      * Ideal.tanh ((lin agg wihT (colN j) + bih (colN j))
          + Ideal.logistic ((lin agg wihT (colR j) + bih (colR j)) + (lin h whhT (colR j) + bhh (colR j)))
            * (lin h whhT (colN j) + bhh (colN j)))
    + Ideal.logistic ((lin agg wihT (colZ j) + bih (colZ j)) + (lin h whhT (colZ j) + bhh (colZ j))) * h j

/-- Entry j of h·Wout + b. -/
def outAt (h : Fin 128 → EReal) (Wout : Fin 128 → Fin 32 → EReal) (b : Fin 32 → EReal) (j : Fin 32) : EReal :=
  lin h Wout j + b j

end Cert.Spec

end
-- ==== Proof.Payload.lean ====
/-
  The kernel bodies' arithmetic read at one entry of the block. Row p of a block of 2000 rows:
  each payload entry (p, j) is the row function of Spec applied to row p of the loaded blocks
  (a change of float format is the identity on the extended reals; a matrix product into a zero
  accumulator is the plain sum over the contracted axis).
-/
import proofs.«424320_j26834955665843_1_alg».proof.Proof.Gen.KernelIdeal.Skeleton
import proofs.«424320_j26834955665843_1_alg».proof.Proof.Spec
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-! ### The operand indices of the 2000×128 by 128×128 product, coordinate by coordinate

At output entry i and contraction position q the left operand is read at (i 0, q) and the right
operand at (q, i 1). -/

theorem lhsA_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem lhsA_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

theorem rhsA_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

theorem rhsA_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- Entry (p, j) of the 2000×128 by 128×128 product into the zero accumulator: the sum over the contracted
    axis of row p of the left block against column j of the right block. -/
theorem mmA_at {φ₁ φ₂ : FTy} (a : FVec Ideal S2000x128 φ₁) (w : FVec Ideal S128x128 φ₂) (p : Fin 2000) (j : Fin 128) :
    matmul dot_S2000x128_S128x128_S2000x128_1_0_0_1_n_n none a w (constant S2000x128 .f32 0x00000000#32) (ix2 p j)
      = Cert.Spec.lin (fun k => a (ix2 p k)) (fun k j' => w (ix2 k j')) j := by
  unfold Cert.Spec.lin
  refine (Ideal.matmul_constant_zero_apply dot_S2000x128_S128x128_S2000x128_1_0_0_1_n_n none a w (ix2 p j)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p j) ((contrEquiv1 dot_S2000x128_S128x128_S2000x128_1_0_0_1_n_n 128 rfl rfl).symm k) = ix2 p k :=
    funext fun c => Fin.ext (by
      match c with
      | ⟨0, _⟩ => exact lhsA_0 _ _
      | ⟨1, _⟩ => exact (lhsA_1 _ _).trans hk)
  have er : dot_S2000x128_S128x128_S2000x128_1_0_0_1_n_n.rhsIdx (ix2 p j) ((contrEquiv1 dot_S2000x128_S128x128_S2000x128_1_0_0_1_n_n 128 rfl rfl).symm k) = ix2 k j :=
    funext fun c => Fin.ext (by
      match c with
      | ⟨0, _⟩ => exact (rhsA_0 _ _).trans hk
      | ⟨1, _⟩ => exact rhsA_1 _ _)
  rw [el, er]

/-! ### The operand indices of the 2000×128 by 128×32 product, coordinate by coordinate

At output entry i and contraction position q the left operand is read at (i 0, q) and the right
operand at (q, i 1). -/

theorem lhsB_0 (i : S2000x32.Idx) (q : dot_S2000x128_S128x32_S2000x32_1_0_0_1_n_n.contr.Idx) :
    (dot_S2000x128_S128x32_S2000x32_1_0_0_1_n_n.lhsIdx i q 0).val = (i 0).val := by
  unfold DotDims.lhsIdx
  rw [dif_neg (show ¬(0 : Fin S2000x128.rank) ∈ dot_S2000x128_S128x32_S2000x32_1_0_0_1_n_n.lhsBatch by decide),
    dif_pos (show (0 : Fin S2000x128.rank) ∈ dot_S2000x128_S128x32_S2000x32_1_0_0_1_n_n.lhsNonContracting by decide)]
  rfl

theorem lhsB_1 (i : S2000x32.Idx) (q : dot_S2000x128_S128x32_S2000x32_1_0_0_1_n_n.contr.Idx) :
    (dot_S2000x128_S128x32_S2000x32_1_0_0_1_n_n.lhsIdx i q 1).val = (q ⟨0, by decide⟩).val :=
  dot_S2000x128_S128x32_S2000x32_1_0_0_1_n_n.lhsIdx_val_of_single rfl i q

theorem rhsB_0 (i : S2000x32.Idx) (q : dot_S2000x128_S128x32_S2000x32_1_0_0_1_n_n.contr.Idx) :
    (dot_S2000x128_S128x32_S2000x32_1_0_0_1_n_n.rhsIdx i q 0).val = (q ⟨0, by decide⟩).val :=
  dot_S2000x128_S128x32_S2000x32_1_0_0_1_n_n.rhsIdx_val_of_single rfl i q

theorem rhsB_1 (i : S2000x32.Idx) (q : dot_S2000x128_S128x32_S2000x32_1_0_0_1_n_n.contr.Idx) :
    (dot_S2000x128_S128x32_S2000x32_1_0_0_1_n_n.rhsIdx i q 1).val = (i 1).val := by
  unfold DotDims.rhsIdx
  rw [dif_neg (show ¬(1 : Fin S128x32.rank) ∈ dot_S2000x128_S128x32_S2000x32_1_0_0_1_n_n.rhsBatch by decide),
    dif_pos (show (1 : Fin S128x32.rank) ∈ dot_S2000x128_S128x32_S2000x32_1_0_0_1_n_n.rhsNonContracting by decide)]
  rfl

/-- Entry (p, j) of the 2000×128 by 128×32 product into the zero accumulator: the sum over the contracted
    axis of row p of the left block against column j of the right block. -/
theorem mmB_at {φ₁ φ₂ : FTy} (a : FVec Ideal S2000x128 φ₁) (w : FVec Ideal S128x32 φ₂) (p : Fin 2000) (j : Fin 32) :
    matmul dot_S2000x128_S128x32_S2000x32_1_0_0_1_n_n none a w (constant S2000x32 .f32 0x00000000#32) (ix2 p j)
      = Cert.Spec.lin (fun k => a (ix2 p k)) (fun k j' => w (ix2 k j')) j := by
  unfold Cert.Spec.lin
  refine (Ideal.matmul_constant_zero_apply dot_S2000x128_S128x32_S2000x32_1_0_0_1_n_n none a w (ix2 p j)).trans ?_
  rw [← Equiv.sum_comp (contrEquiv1 dot_S2000x128_S128x32_S2000x32_1_0_0_1_n_n 128 rfl rfl).symm]
  refine Finset.sum_congr rfl fun k _ => ?_
  have hk := contrEquiv1_symm_val dot_S2000x128_S128x32_S2000x32_1_0_0_1_n_n 128 rfl rfl k
  have el : dot_S2000x128_S128x32_S2000x32_1_0_0_1_n_n.lhsIdx (ix2 p j) ((contrEquiv1 dot_S2000x128_S128x32_S2000x32_1_0_0_1_n_n 128 rfl rfl).symm k) = ix2 p k :=
    funext fun c => Fin.ext (by
      match c with
      | ⟨0, _⟩ => exact lhsB_0 _ _
      | ⟨1, _⟩ => exact (lhsB_1 _ _).trans hk)
  have er : dot_S2000x128_S128x32_S2000x32_1_0_0_1_n_n.rhsIdx (ix2 p j) ((contrEquiv1 dot_S2000x128_S128x32_S2000x32_1_0_0_1_n_n 128 rfl rfl).symm k) = ix2 k j :=
    funext fun c => Fin.ext (by
      match c with
      | ⟨0, _⟩ => exact (rhsB_0 _ _).trans hk
      | ⟨1, _⟩ => exact rhsB_1 _ _)
  rw [el, er]

/-- The bias row broadcast over the rows of a block, read at (p, j): the row's entry j. (The cast of
    the row to its own shape is the identity; the broadcast reads coordinate 0 on the unit axis.) -/
theorem biasA_at (b : Vec Ideal S1x128 .f32) (hc : S1x128.ShapeCasts S1x128) (hb : S1x128.Broadcasts S2000x128)
    (p : Fin 2000) (j : Fin 128) :
    broadcastTo S2000x128 (shapeCast S1x128 b hc) hb (ix2 p j) = b (ix2 0 j) := by
  rw [shapeCast_self]
  exact broadcastTo_apply b hb (ix2 p j) (ix2 0 j) (fun a => by
    match a with
    | ⟨0, _⟩ => rfl
    | ⟨1, _⟩ => rfl)

/-- The bias row broadcast over the rows of a block, read at (p, j): the row's entry j. (The cast of
    the row to its own shape is the identity; the broadcast reads coordinate 0 on the unit axis.) -/
theorem biasB_at (b : Vec Ideal S1x32 .f32) (hc : S1x32.ShapeCasts S1x32) (hb : S1x32.Broadcasts S2000x32)
    (p : Fin 2000) (j : Fin 32) :
    broadcastTo S2000x32 (shapeCast S1x32 b hc) hb (ix2 p j) = b (ix2 0 j) := by
  rw [shapeCast_self]
  exact broadcastTo_apply b hb (ix2 p j) (ix2 0 j) (fun a => by
    match a with
    | ⟨0, _⟩ => rfl
    | ⟨1, _⟩ => rfl)

/-- Entry (p, j) of relu(x·Win + b) on a block. -/
theorem k0_pay1_at (v0 : Vec Ideal S2000x128 .f32) (v2 : Vec Ideal S128x128 .f32) (v5 : Vec Ideal S1x128 .f32)
    (p : Fin 2000) (j : Fin 128) :
    k0_pay1 (F := Ideal) v0 v2 v5 (ix2 p j)
      = Cert.Spec.h0At (fun k => v0 (ix2 p k)) (fun k j' => v2 (ix2 k j')) (fun j' => v5 (ix2 0 j')) j := by
  unfold k0_pay1 Cert.Spec.h0At
  refine (maximumf_apply _ _ _).trans ?_
  refine congrArg₂ max ?_ rfl
  refine (addf_apply _ _ _).trans ?_
  exact congrArg₂ (· + ·) (mmA_at _ _ p j) (biasA_at v5 _ _ p j)

/-- Entry (p, j) of the first message projection on a block: row p of the block's h0 against W_msg. -/
theorem k0_pay2_at (v0 : Vec Ideal S2000x128 .f32) (v2 : Vec Ideal S128x128 .f32) (v5 : Vec Ideal S1x128 .f32)
    (v13 : Vec Ideal S128x128 .f32) (p : Fin 2000) (j : Fin 128) :
    k0_pay2 (F := Ideal) v0 v2 v5 v13 (ix2 p j)
      = Cert.Spec.lin (fun k => Cert.Spec.h0At (fun k' => v0 (ix2 p k')) (fun k' j' => v2 (ix2 k' j')) (fun j' => v5 (ix2 0 j')) k)
          (fun k j' => v13 (ix2 k j')) j := by
  unfold k0_pay2
  refine (mmA_at _ _ p j).trans ?_
  exact congrArg (fun x => Cert.Spec.lin x (fun k j' => v13 (ix2 k j')) j)
    (funext fun k => k0_pay1_at v0 v2 v5 p k)

/-- Entry (p, j) of a message projection of an already computed block h. -/
theorem k1_pay1_at (v39 : FVec Ideal S2000x128 .f32) (v42 : Vec Ideal S128x128 .f32) (p : Fin 2000) (j : Fin 128) :
    k1_pay1 (F := Ideal) v39 v42 (ix2 p j)
      = Cert.Spec.lin (fun k => v39 (ix2 p k)) (fun k j' => v42 (ix2 k j')) j := by
  unfold k1_pay1
  exact mmA_at _ _ p j

/-- Entry (p, j) of the output projection of an already computed block h. -/
theorem k2_pay1_at (v40 : FVec Ideal S2000x128 .bf16) (v41 : Vec Ideal S128x32 .f32) (v44 : Vec Ideal S1x32 .f32)
    (p : Fin 2000) (j : Fin 32) :
    k2_pay1 (F := Ideal) v40 v41 v44 (ix2 p j)
      = Cert.Spec.outAt (fun k => v40 (ix2 p k)) (fun k j' => v41 (ix2 k j')) (fun j' => v44 (ix2 0 j')) j := by
  unfold k2_pay1 Cert.Spec.outAt
  refine (addf_apply _ _ _).trans ?_
  exact congrArg₂ (· + ·) (mmB_at _ _ p j) (biasB_at v44 _ _ p j)

end Cert.KernelIdeal.Pay

end
-- ==== Proof.Region0.lean ====
/-
  The first kernel's two output arrays after its 25 grid points. Point t loads rows 2000·t … 2000·t+1999
  of x and the whole weights, and writes the same rows of h0 = relu(x·Win + b) and of m0 = h0·Wmsg;
  the 25 row blocks tile the 50000 rows, so entry (r, j) of each array is the row function of row r.
-/
import proofs.«424320_j26834955665843_1_alg».proof.Proof.Gen.KernelIdeal.Frame
import proofs.«424320_j26834955665843_1_alg».proof.Proof.Payload
import Idealize.ShloMosaic.Lib.ValueIdx
import Idealize.ShloMosaic.Lib.Pipeline.Value

set_option maxRecDepth 16384

noncomputable section

namespace Cert.KernelIdeal.Reg0

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 :=
  funext fun a => match a with | ⟨0, _⟩ => rfl | ⟨1, _⟩ => rfl

/-- The printed index maps over the 25 grid points: the row windows (x, h0, m0) sit at block (t, 0), the weights at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem N25 : cfg0.N = 25 := N_0

/-- Row 2000·t + p lies inside the 50000 rows, for a grid point t and a block row p. -/
theorem row_lt (t : Fin cfg0.N) (p : Fin 2000) : 2000 * t.val + p.val < 50000 := by
  have h1 : t.val < 25 := lt_of_lt_of_eq t.isLt N25
  have h2 := p.isLt
  omega

/-- The x window's block at point t: rows 2000·t … 2000·t + 1999 of x. -/
theorem blk_x (c : Dev nD) (t : Fin cfg0.N) (p : Fin 2000) (k : Fin 128) :
    iblk0 (F := Ideal) V c 0 t (ix2 p k) = V c main_arg0 (ix2 ⟨2000 * t.val + p.val, row_lt t p⟩ k) := by
  obtain ⟨e0, e1, -⟩ := idx_facts t
  show V c main_arg0 (((cfg0.win 0).blk t).view.emb (ix2 p k)) = V c main_arg0 _
  refine congrArg (V c main_arg0) ?_
  funext a
  apply Fin.ext
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

/-- The W_in window's block at any point is the whole of W_in. -/
theorem blk_win (c : Dev nD) (t : Fin cfg0.N) (k : Fin 128) (j : Fin 128) :
    iblk0 (F := Ideal) V c 1 t (ix2 k j) = V c main_arg2 (ix2 k j) := by
  obtain ⟨-, -, e0, e1, -⟩ := idx_facts t
  show V c main_arg2 (((cfg0.win 1).blk t).view.emb (ix2 k j)) = V c main_arg2 _
  refine congrArg (V c main_arg2) ?_
  funext a
  apply Fin.ext
  match a with
  | ⟨0, _⟩ => show win0_1.index t (0 : Fin 2) * 128 + 1 * k.val = k.val; rw [e0]; omega
  | ⟨1, _⟩ => show win0_1.index t (1 : Fin 2) * 128 + 1 * j.val = j.val; rw [e1]; omega

/-- The bias window's block at any point is the whole bias row. -/
theorem blk_b (c : Dev nD) (t : Fin cfg0.N) (z : Fin 1) (j : Fin 128) :
    iblk0 (F := Ideal) V c 2 t (ix2 z j) = V c main_v4 (ix2 z j) := by
  obtain ⟨-, -, -, -, e0, e1, -⟩ := idx_facts t
  show V c main_v4 (((cfg0.win 2).blk t).view.emb (ix2 z j)) = V c main_v4 _
  refine congrArg (V c main_v4) ?_
  funext a
  apply Fin.ext
  match a with
  | ⟨0, _⟩ => show win0_2.index t (0 : Fin 2) * 1 + 1 * z.val = z.val; rw [e0]; omega
  | ⟨1, _⟩ => show win0_2.index t (1 : Fin 2) * 128 + 1 * j.val = j.val; rw [e1]; omega

/-- The W_msg0 window's block at any point is the whole of W_msg0. -/
theorem blk_wmsg (c : Dev nD) (t : Fin cfg0.N) (k : Fin 128) (j : Fin 128) :
    iblk0 (F := Ideal) V c 3 t (ix2 k j) = V c main_arg4 (ix2 k j) := by
  obtain ⟨-, -, -, -, -, -, e0, e1, -⟩ := idx_facts t
  show V c main_arg4 (((cfg0.win 3).blk t).view.emb (ix2 k j)) = V c main_arg4 _
  refine congrArg (V c main_arg4) ?_
  funext a
  apply Fin.ext
  match a with
  | ⟨0, _⟩ => show win0_3.index t (0 : Fin 2) * 128 + 1 * k.val = k.val; rw [e0]; omega
  | ⟨1, _⟩ => show win0_3.index t (1 : Fin 2) * 128 + 1 * j.val = j.val; rw [e1]; omega

/-- Row r of h0 as a function of the region's entry contents: relu(x·Win + b) of row r. -/
def rowH (c : Dev nD) (r : Fin 50000) (j : Fin 128) : Elt Ideal .f32 :=
  Cert.Spec.h0At (fun k => V c main_arg0 (ix2 r k)) (fun k j' => V c main_arg2 (ix2 k j')) (fun j' => V c main_v4 (ix2 0 j')) j

/-- Row r of m0: row r of h0 against W_msg0. -/
def rowM (c : Dev nD) (r : Fin 50000) (j : Fin 128) : Elt Ideal .f32 :=
  Cert.Spec.lin (fun k => rowH V c r k) (fun k j' => V c main_arg4 (ix2 k j')) j

/-- The whole h0 array: entry i is the row function of row i₀ at column i₁. -/
def arrH (c : Dev nD) : S50000x128.Idx → Elt Ideal .f32 :=
  fun i => rowH V c ⟨(i 0).val, idx2_lt0 i⟩ ⟨(i 1).val, idx2_lt1 i⟩

/-- The whole m0 array. -/
def arrM (c : Dev nD) : S50000x128.Idx → Elt Ideal .f32 :=
  fun i => rowM V c ⟨(i 0).val, idx2_lt0 i⟩ ⟨(i 1).val, idx2_lt1 i⟩

/-- The h0 payload on the blocks of point t, entry (p, q): the row function of row 2000·t + p. -/
theorem pay_h0 (c : Dev nD) (t : Fin cfg0.N) (p : Fin 2000) (q : Fin 128) :
    k0_pay1 (F := Ideal) (iblk0 V c 0 t) (iblk0 V c 1 t) (iblk0 V c 2 t) (ix2 p q)
      = rowH V c ⟨2000 * t.val + p.val, row_lt t p⟩ q := by
  refine (Cert.KernelIdeal.Pay.k0_pay1_at _ _ _ p q).trans ?_
  unfold rowH
  simp only [blk_x, blk_win, blk_b]

/-- The m0 payload on the blocks of point t, entry (p, q). -/
theorem pay_m0 (c : Dev nD) (t : Fin cfg0.N) (p : Fin 2000) (q : Fin 128) :
    k0_pay2 (F := Ideal) (iblk0 V c 0 t) (iblk0 V c 1 t) (iblk0 V c 2 t) (iblk0 V c 3 t) (ix2 p q)
      = rowM V c ⟨2000 * t.val + p.val, row_lt t p⟩ q := by
  refine (Cert.KernelIdeal.Pay.k0_pay2_at _ _ _ _ p q).trans ?_
  unfold rowM rowH
  simp only [blk_x, blk_win, blk_b, blk_wmsg]

/-- Where entry y of point t's block of h0 sits in the array: row 2000·t + y₀, column y₁. -/
theorem emb_h0 (t : Fin cfg0.N) (p : Fin 2000) (q : Fin 128) :
    ((cfg0.win 4).blk t).view.emb (ix2 p q) = ix2 (n0 := 50000) (n1 := 128) ⟨2000 * t.val + p.val, row_lt t p⟩ q := by
  obtain ⟨-, -, -, -, -, -, -, -, e0, e1, -⟩ := idx_facts t
  funext a
  apply Fin.ext
  match a with
  | ⟨0, _⟩ => show win0_4.index t (0 : Fin 2) * 2000 + 1 * p.val = 2000 * t.val + p.val; rw [e0]; omega
  | ⟨1, _⟩ => show win0_4.index t (1 : Fin 2) * 128 + 1 * q.val = q.val; rw [e1]; omega

theorem emb_m0 (t : Fin cfg0.N) (p : Fin 2000) (q : Fin 128) :
    ((cfg0.win 5).blk t).view.emb (ix2 p q) = ix2 (n0 := 50000) (n1 := 128) ⟨2000 * t.val + p.val, row_lt t p⟩ q := by
  obtain ⟨-, -, -, -, -, -, -, -, -, -, e0, e1⟩ := idx_facts t
  funext a
  apply Fin.ext
  match a with
  | ⟨0, _⟩ => show win0_5.index t (0 : Fin 2) * 2000 + 1 * p.val = 2000 * t.val + p.val; rw [e0]; omega
  | ⟨1, _⟩ => show win0_5.index t (1 : Fin 2) * 128 + 1 * q.val = q.val; rw [e1]; omega

/-- What point t writes back to h0 is block t of the whole-array function. -/
theorem flushed_h0 (c : Dev nD) (t : Fin cfg0.N) :
    (dat0 (F := Ideal) V c).flushed 4 t = ((cfg0.win 4).blk t).view.read (Elt Ideal) (arrH V c) := by
  show (cfg0.win 4).cut (grid0.coords t) ((dat0 (F := Ideal) V c).after 4 t) = _
  rw [after0_4]
  unfold out0_4
  rw [View.canon_unit_zero hz]
  simp only [View.ld_unit_zero (S := S2000x128) hz, View.ld_unit_zero (S := S128x128) hz, View.ld_unit_zero (S := S1x128) hz]
  funext y
  obtain ⟨p, q, rfl⟩ : ∃ (p : Fin 2000) (q : Fin 128), y = ix2 p q := ⟨y 0, y 1, eq_ix2 y⟩
  show k0_pay1 (F := Ideal) (iblk0 V c 0 t) (iblk0 V c 1 t) (iblk0 V c 2 t) (ix2 p q) = arrH V c (((cfg0.win 4).blk t).view.emb (ix2 p q))
  rw [emb_h0, pay_h0]
  rfl

/-- What point t writes back to m0 is block t of the whole-array function. -/
theorem flushed_m0 (c : Dev nD) (t : Fin cfg0.N) :
    (dat0 (F := Ideal) V c).flushed 5 t = ((cfg0.win 5).blk t).view.read (Elt Ideal) (arrM V c) := by
  show (cfg0.win 5).cut (grid0.coords t) ((dat0 (F := Ideal) V c).after 5 t) = _
  rw [after0_5]
  unfold out0_5
  rw [View.canon_unit_zero hz]
  simp only [View.ld_unit_zero (S := S2000x128) hz, View.ld_unit_zero (S := S128x128) hz, View.ld_unit_zero (S := S1x128) hz]
  funext y
  obtain ⟨p, q, rfl⟩ : ∃ (p : Fin 2000) (q : Fin 128), y = ix2 p q := ⟨y 0, y 1, eq_ix2 y⟩
  show k0_pay2 (F := Ideal) (iblk0 V c 0 t) (iblk0 V c 1 t) (iblk0 V c 2 t) (iblk0 V c 3 t) (ix2 p q) = arrM V c (((cfg0.win 5).blk t).view.emb (ix2 p q))
  rw [emb_m0, pay_m0]
  rfl

/-- An index of the h0 array is in point t's block iff each coordinate is in the block's range on its axis. -/
theorem mem_blk_h0 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v5_0).slice (win0_4.rect t)).set ↔ _
  rw [View.set_slice_whole, Rect.mem_set_unit]
  exact Iff.rfl

theorem mem_blk_m0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v5_1).slice (win0_5.rect t)).set ↔ _
  rw [View.set_slice_whole, Rect.mem_set_unit]
  exact Iff.rfl

/-- The grid point whose row block holds row r: r / 2000. -/
def ptOf (i : S50000x128.Idx) : Fin cfg0.N :=
  ⟨(i 0).val / 2000, by
    have h0 : (i 0).val < 50000 := idx2_lt0 i
    have hN : cfg0.N = 25 := N25
    omega⟩

/-- The 25 row blocks tile the h0 array: every index lies in the block of point i₀ / 2000. -/
theorem cover_h0 (i : S50000x128.Idx) :
    ∃ t : Fin cfg0.N, (cfg0.win 4).flush t = true ∧ i ∈ ((cfg0.win 4).blk t).view.set := by
  have h0 : (i 0).val < 50000 := idx2_lt0 i
  have h1 : (i 1).val < 128 := idx2_lt1 i
  refine ⟨ptOf i, flush0_4 _, ?_⟩
  rw [mem_blk_h0]
  obtain ⟨-, -, -, -, -, -, -, -, e0, e1, -⟩ := idx_facts (ptOf i)
  have ht : (ptOf i).val = (i 0).val / 2000 := rfl
  intro a
  match a with
  | ⟨0, _⟩ => show win0_4.index (ptOf i) (0 : Fin 2) * 2000 ≤ (i 0).val ∧ (i 0).val < win0_4.index (ptOf i) (0 : Fin 2) * 2000 + 2000; rw [e0, ht]; omega
  | ⟨1, _⟩ => show win0_4.index (ptOf i) (1 : Fin 2) * 128 ≤ (i 1).val ∧ (i 1).val < win0_4.index (ptOf i) (1 : Fin 2) * 128 + 128; rw [e1]; omega

theorem cover_m0 (i : S50000x128.Idx) :
    ∃ t : Fin cfg0.N, (cfg0.win 5).flush t = true ∧ i ∈ ((cfg0.win 5).blk t).view.set := by
  have h0 : (i 0).val < 50000 := idx2_lt0 i
  have h1 : (i 1).val < 128 := idx2_lt1 i
  refine ⟨ptOf i, flush0_5 _, ?_⟩
  rw [mem_blk_m0]
  obtain ⟨-, -, -, -, -, -, -, -, -, -, e0, e1⟩ := idx_facts (ptOf i)
  have ht : (ptOf i).val = (i 0).val / 2000 := rfl
  intro a
  match a with
  | ⟨0, _⟩ => show win0_5.index (ptOf i) (0 : Fin 2) * 2000 ≤ (i 0).val ∧ (i 0).val < win0_5.index (ptOf i) (0 : Fin 2) * 2000 + 2000; rw [e0, ht]; omega
  | ⟨1, _⟩ => show win0_5.index (ptOf i) (1 : Fin 2) * 128 ≤ (i 1).val ∧ (i 1).val < win0_5.index (ptOf i) (1 : Fin 2) * 128 + 128; rw [e1]; omega

/-- The h0 array after the 25 points is the whole-array function. -/
theorem final_h0 (c : Dev nD) : (dat0 (F := Ideal) V c).arrAt 4 cfg0.N = arrH V c :=
  (dat0 (F := Ideal) V c).arrAt_eq_of_cover 4 (arrH V c) (fun t _ => flushed_h0 V c t) cover_h0

/-- The m0 array after the 25 points is the whole-array function. -/
theorem final_m0 (c : Dev nD) : (dat0 (F := Ideal) V c).arrAt 5 cfg0.N = arrM V c :=
  (dat0 (F := Ideal) V c).arrAt_eq_of_cover 5 (arrM V c) (fun t _ => flushed_m0 V c t) cover_m0

/-- Entry (r, j) of h0 after the region: relu(x·Win + b) of row r. -/
theorem arr_h0 (c : Dev nD) (r : Fin 50000) (j : Fin 128) :
    (dat0 (F := Ideal) V c).arrAt 4 cfg0.N (ix2 r j)
      = Cert.Spec.h0At (fun k => V c main_arg0 (ix2 r k)) (fun k j' => V c main_arg2 (ix2 k j')) (fun j' => V c main_v4 (ix2 0 j')) j :=
  congrFun (final_h0 V c) (ix2 r j)

/-- Entry (r, j) of m0 after the region: row r of h0 against W_msg0. -/
theorem arr_m0 (c : Dev nD) (r : Fin 50000) (j : Fin 128) :
    (dat0 (F := Ideal) V c).arrAt 5 cfg0.N (ix2 r j)
      = Cert.Spec.lin (fun k => Cert.Spec.h0At (fun k' => V c main_arg0 (ix2 r k')) (fun k' j' => V c main_arg2 (ix2 k' j')) (fun j' => V c main_v4 (ix2 0 j')) k)
          (fun k j' => V c main_arg4 (ix2 k j')) j :=
  congrFun (final_m0 V c) (ix2 r j)

end Cert.KernelIdeal.Reg0

end
-- ==== Proof.PayloadGru.lean ====
/-
  The GRU body read at one entry of the block: entry (p, j) of the new hidden block is the row
  function Spec.gruAt of row p of the message block and of the hidden block. The two matrix
  products are sums over the 128 inputs, the three gates are the column ranges 0..127, 128..255,
  256..383 of the rows of width 384, and the kernel's logistic is 1 / (1 + e^(−a)).
-/
import proofs.«424320_j26834955665843_1_alg».proof.Proof.Gen.KernelIdeal.Skeleton
import proofs.«424320_j26834955665843_1_alg».proof.Proof.Spec
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-- Axis 0 of the left operand's index is the result's row. -/
private theorem gru_lhs_0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl

/-- Axis 1 of the left operand's index is the contracted coordinate. -/
private theorem gru_lhs_1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q

/-- Axis 0 of the right operand's index is the contracted coordinate. -/
private theorem gru_rhs_0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q

/-- Axis 1 of the right operand's index is the result's column. -/
private theorem gru_rhs_1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-- Entry (p, q) of a product into the zero block is the sum over the 128 contracted coordinates. -/
private theorem gru_matmul_at (a : FVec Ideal S2000x128 .bf16) (w : FVec Ideal S128x384 .bf16) (p : Fin 2000) (q : Fin 384) :
    matmul dot_S2000x128_S128x384_S2000x384_1_0_0_1_n_n none a w (constant S2000x384 .f32 0x00000000#32) (ix2 p q)
      = ∑ k : Fin 128, a (ix2 p k) * w (ix2 k q) := by
  refine (Ideal.matmul_constant_zero_apply dot_S2000x128_S128x384_S2000x384_1_0_0_1_n_n none a w (ix2 p q)).trans ?_
  rw [← Equiv.sum_comp (ValueIdx.contrEquiv1 dot_S2000x128_S128x384_S2000x384_1_0_0_1_n_n 128 rfl rfl).symm]
  refine Finset.sum_congr rfl fun k _ => ?_
  have hk := ValueIdx.contrEquiv1_symm_val dot_S2000x128_S128x384_S2000x384_1_0_0_1_n_n 128 rfl rfl k
  have el : dot_S2000x128_S128x384_S2000x384_1_0_0_1_n_n.lhsIdx (ix2 p q) ((ValueIdx.contrEquiv1 dot_S2000x128_S128x384_S2000x384_1_0_0_1_n_n 128 rfl rfl).symm k) = ix2 p k := funext fun a => Fin.ext (by
    match a with
    | ⟨0, _⟩ => exact gru_lhs_0 _ _
    | ⟨1, _⟩ => exact (gru_lhs_1 _ _).trans hk)
  have er : dot_S2000x128_S128x384_S2000x384_1_0_0_1_n_n.rhsIdx (ix2 p q) ((ValueIdx.contrEquiv1 dot_S2000x128_S128x384_S2000x384_1_0_0_1_n_n 128 rfl rfl).symm k) = ix2 k q := funext fun a => Fin.ext (by
    match a with
    | ⟨0, _⟩ => exact (gru_rhs_0 _ _).trans hk
    | ⟨1, _⟩ => exact gru_rhs_1 _ _)
  rw [el, er]

/-- Entry (p, q) of the bias row repeated down the 2000 rows is entry (0, q) of the row. -/
private theorem gru_bias_at (b : FVec Ideal S1x384 .f32) (p : Fin 2000) (q : Fin 384) :
    broadcastTo S2000x384 b broadcasts_S1x384_S2000x384 (ix2 p q) = b (ix2 0 q) :=
  broadcastTo_apply b broadcasts_S1x384_S2000x384 (ix2 p q) (ix2 0 q) (fun a => match a with
    | ⟨0, _⟩ => by show (0 : Nat) = if (1 : Nat) = 1 then 0 else _; rw [if_pos rfl]
    | ⟨1, _⟩ => by show q.val = if (384 : Nat) = 1 then 0 else q.val; rw [if_neg (by decide)])

/-- Entry (p, q) of a dense layer with its bias row: column q of row p times the weights, plus the bias. -/
private theorem gru_lin_at (x : Vec Ideal S2000x128 .f32) (w : Vec Ideal S128x384 .f32) (b : Vec Ideal S1x384 .f32)
    (p : Fin 2000) (q : Fin 384) :
    addf (matmul dot_S2000x128_S128x384_S2000x384_1_0_0_1_n_n none
            (truncf .bf16 (shapeCast S2000x128 x shapeCasts_S2000x128_S2000x128 : FVec Ideal S2000x128 .f32) bitsLt_bf16_f32)
            (truncf .bf16 (shapeCast S128x384 w shapeCasts_S128x384_S128x384 : FVec Ideal S128x384 .f32) bitsLt_bf16_f32)
            (constant S2000x384 .f32 0x00000000#32))
         (broadcastTo S2000x384 (shapeCast S1x384 b shapeCasts_S1x384_S1x384 : FVec Ideal S1x384 .f32) broadcasts_S1x384_S2000x384) (ix2 p q)
      = Cert.Spec.lin (fun k => x (ix2 p k)) (fun k q => w (ix2 k q)) q + b (ix2 0 q) := by
  rw [shapeCast_self, shapeCast_self, shapeCast_self]
  refine (addf_apply _ _ _).trans ?_
  rw [gru_matmul_at, gru_bias_at]
  rfl

/-- The first gate's slice of a row of width 384: entry (p, j) is entry (p, 0 + j). -/
private theorem gru_slice_R (v : FVec Ideal S2000x384 .f32) (p : Fin 2000) (j : Fin 128) :
    extractStridedSlice S2000x128 ![0, 0] v slices_S2000x384_o0_0_S2000x128 (ix2 p j) = v (ix2 p (Cert.Spec.colR j)) :=
  extractStridedSlice_apply ![0, 0] v slices_S2000x384_o0_0_S2000x128 (ix2 p j) (ix2 p (Cert.Spec.colR j)) (fun a => match a with
    | ⟨0, _⟩ => (Nat.zero_add p.val).symm
    | ⟨1, _⟩ => rfl)

/-- The second gate's slice: entry (p, j) is entry (p, 128 + j). -/
private theorem gru_slice_Z (v : FVec Ideal S2000x384 .f32) (p : Fin 2000) (j : Fin 128) :
    extractStridedSlice S2000x128 ![0, 128] v slices_S2000x384_o0_128_S2000x128 (ix2 p j) = v (ix2 p (Cert.Spec.colZ j)) :=
  extractStridedSlice_apply ![0, 128] v slices_S2000x384_o0_128_S2000x128 (ix2 p j) (ix2 p (Cert.Spec.colZ j)) (fun a => match a with
    | ⟨0, _⟩ => (Nat.zero_add p.val).symm
    | ⟨1, _⟩ => rfl)

/-- The third gate's slice: entry (p, j) is entry (p, 256 + j). -/
private theorem gru_slice_N (v : FVec Ideal S2000x384 .f32) (p : Fin 2000) (j : Fin 128) :
    extractStridedSlice S2000x128 ![0, 256] v slices_S2000x384_o0_256_S2000x128 (ix2 p j) = v (ix2 p (Cert.Spec.colN j)) :=
  extractStridedSlice_apply ![0, 256] v slices_S2000x384_o0_256_S2000x128 (ix2 p j) (ix2 p (Cert.Spec.colN j)) (fun a => match a with
    | ⟨0, _⟩ => (Nat.zero_add p.val).symm
    | ⟨1, _⟩ => rfl)

/-- The gate arithmetic at entry (p, j), over any two rows of width 384 and any hidden block:
    (1 − z) · n + z · h with r, z the logistics of the first two gate sums and n the tanh of the third. -/
private theorem gru_gate_at (gi gh : FVec Ideal S2000x384 .f32) (h : FVec Ideal S2000x128 .f32) (p : Fin 2000) (j : Fin 128) :
    addf (mulf (subf (broadcast S2000x128 (Scalar.ofBits .f32 0x3F800000#32 : Ideal .f32))
                     (logistic (addf (extractStridedSlice S2000x128 ![0, 128] gi slices_S2000x384_o0_128_S2000x128)
                                     (extractStridedSlice S2000x128 ![0, 128] gh slices_S2000x384_o0_128_S2000x128))))
               (tanh (addf (extractStridedSlice S2000x128 ![0, 256] gi slices_S2000x384_o0_256_S2000x128)
                           (mulf (logistic (addf (extractStridedSlice S2000x128 ![0, 0] gi slices_S2000x384_o0_0_S2000x128)
                                                 (extractStridedSlice S2000x128 ![0, 0] gh slices_S2000x384_o0_0_S2000x128)))
                                 (extractStridedSlice S2000x128 ![0, 256] gh slices_S2000x384_o0_256_S2000x128)))))
         (mulf (logistic (addf (extractStridedSlice S2000x128 ![0, 128] gi slices_S2000x384_o0_128_S2000x128)
                               (extractStridedSlice S2000x128 ![0, 128] gh slices_S2000x384_o0_128_S2000x128)))
               h) (ix2 p j)
      = (Cert.Spec.one32 - Ideal.logistic (gi (ix2 p (Cert.Spec.colZ j)) + gh (ix2 p (Cert.Spec.colZ j))))
          * Ideal.tanh (gi (ix2 p (Cert.Spec.colN j))
              + Ideal.logistic (gi (ix2 p (Cert.Spec.colR j)) + gh (ix2 p (Cert.Spec.colR j))) * gh (ix2 p (Cert.Spec.colN j)))
        + Ideal.logistic (gi (ix2 p (Cert.Spec.colZ j)) + gh (ix2 p (Cert.Spec.colZ j))) * h (ix2 p j) := by
  rw [← gru_slice_R gi p j, ← gru_slice_R gh p j, ← gru_slice_Z gi p j, ← gru_slice_Z gh p j,
    ← gru_slice_N gi p j, ← gru_slice_N gh p j]
  rfl

/-- Entry (p, j) of the GRU update in the middle kernel. -/
theorem k1_pay2_at (v0 v2 : Vec Ideal S2000x128 .f32) (v6 v9 : Vec Ideal S128x384 .f32) (v13 v18 : Vec Ideal S1x384 .f32)
    (p : Fin 2000) (j : Fin 128) :
    k1_pay2 (F := Ideal) v0 v2 v6 v9 v13 v18 (ix2 p j)
      = Cert.Spec.gruAt (fun k => v0 (ix2 p k)) (fun k => v2 (ix2 p k)) (fun k q => v6 (ix2 k q)) (fun k q => v9 (ix2 k q))
          (fun q => v13 (ix2 0 q)) (fun q => v18 (ix2 0 q)) j := by
  refine (gru_gate_at _ _ _ p j).trans ?_
  rw [gru_lin_at v0 v6 v13 p (Cert.Spec.colZ j), gru_lin_at v0 v6 v13 p (Cert.Spec.colN j), gru_lin_at v0 v6 v13 p (Cert.Spec.colR j),
    gru_lin_at v2 v9 v18 p (Cert.Spec.colZ j), gru_lin_at v2 v9 v18 p (Cert.Spec.colN j), gru_lin_at v2 v9 v18 p (Cert.Spec.colR j),
    shapeCast_self]
  rfl

/-- Entry (p, j) of the GRU update in the last kernel (the same arithmetic, then a change of float format). -/
theorem k2_pay2_at (v0 v2 : Vec Ideal S2000x128 .f32) (v6 v9 : Vec Ideal S128x384 .f32) (v13 v18 : Vec Ideal S1x384 .f32)
    (p : Fin 2000) (j : Fin 128) :
    k2_pay2 (F := Ideal) v0 v2 v6 v9 v13 v18 (ix2 p j)
      = Cert.Spec.gruAt (fun k => v0 (ix2 p k)) (fun k => v2 (ix2 p k)) (fun k q => v6 (ix2 k q)) (fun k q => v9 (ix2 k q))
          (fun q => v13 (ix2 0 q)) (fun q => v18 (ix2 0 q)) j := by
  -- the change of float format is the identity on extended reals; what is left is the middle kernel's entry
  exact (truncf_apply (k1_pay2 (F := Ideal) v0 v2 v6 v9 v13 v18) bitsLt_bf16_f32 (ix2 p j)).trans
    (k1_pay2_at v0 v2 v6 v9 v13 v18 p j)

end Cert.KernelIdeal.Pay

end
-- ==== Proof.Region1.lean ====
/-
  The middle kernel's two output arrays after its 25 grid points. Point t loads rows 2000·t … 2000·t+1999 of
  the aggregated messages and of the hidden state and the whole (transposed) gate weights and biases, and
  writes the same rows of the new hidden state (the GRU update) and of its message projection; the 25 row
  blocks tile the 50000 rows.
-/
import proofs.«424320_j26834955665843_1_alg».proof.Proof.Gen.KernelIdeal.Frame
import proofs.«424320_j26834955665843_1_alg».proof.Proof.Payload
import proofs.«424320_j26834955665843_1_alg».proof.Proof.PayloadGru
import Idealize.ShloMosaic.Lib.ValueIdx
import Idealize.ShloMosaic.Lib.Pipeline.Value

set_option maxRecDepth 16384

noncomputable section

namespace Cert.KernelIdeal.Reg1

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- Row r of the new hidden state, entry j, as the region leaves it. -/
abbrev h1At (c : Dev nD) (r : Fin 50000) (j : Fin 128) : EReal :=
  Cert.Spec.gruAt (fun k => V c main_v9 (ix2 r k)) (fun k => V c main_v5_0 (ix2 r k))
    (fun k q => V c main_v10 (ix2 k q)) (fun k q => V c main_v11 (ix2 k q))
    (fun q => V c main_v12 (ix2 0 q)) (fun q => V c main_v13 (ix2 0 q)) j

/-- The zero offset of a whole-buffer rectangle. -/
theorem hz : (![0, 0] : Fin 2 → Nat) = fun _ => 0 := funext fun a => by
  match a with | ⟨0, _⟩ => rfl | ⟨1, _⟩ => rfl

/-- The index maps over the grid: the row windows sit at block (t, 0), the weight and bias windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- Entry (p, k) of the message block at point t is entry (2000·t + p, k) of the aggregated messages. -/
theorem blk_agg (c : Dev nD) (t : Fin cfg1.N) (p : Fin 2000) (k : Fin 128) (r : Fin 50000)
    (hr : r.val = 2000 * t.val + p.val) :
    (iblk1 (F := Ideal) V c 0 t : Vec Ideal S2000x128 .f32) (ix2 p k) = V c main_v9 (ix2 r k) := by
  have e0 := (idx_facts t).1
  have e1 := (idx_facts t).2.1
  unfold iblk1
  rw [View.read_apply]
  show V c main_v9 _ = V c main_v9 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- Entry (p, k) of the hidden block at point t is entry (2000·t + p, k) of the hidden state. -/
theorem blk_h (c : Dev nD) (t : Fin cfg1.N) (p : Fin 2000) (k : Fin 128) (r : Fin 50000)
    (hr : r.val = 2000 * t.val + p.val) :
    (iblk1 (F := Ideal) V c 1 t : Vec Ideal S2000x128 .f32) (ix2 p k) = V c main_v5_0 (ix2 r k) := by
  have e0 := (idx_facts t).2.2.1
  have e1 := (idx_facts t).2.2.2.1
  unfold iblk1
  rw [View.read_apply]
  show V c main_v5_0 _ = V c main_v5_0 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 128 + 1 * k.val = k.val; rw [e1]; omega

/-- The input-gate weights' block is the whole array at every point. -/
theorem blk_wih (c : Dev nD) (t : Fin cfg1.N) (k : Fin 128) (q : Fin 384) :
    (iblk1 (F := Ideal) V c 2 t : Vec Ideal S128x384 .f32) (ix2 k q) = V c main_v10 (ix2 k q) := by
  have e0 := (idx_facts t).2.2.2.2.1
  have e1 := (idx_facts t).2.2.2.2.2.1
  unfold iblk1
  rw [View.read_apply]
  show V c main_v10 _ = V c main_v10 _
  congr 1
  funext a
  apply Fin.ext
  match a with
  | ⟨0, _⟩ => show win1_2.index t (0 : Fin 2) * 128 + 1 * k.val = k.val; rw [e0]; omega
  | ⟨1, _⟩ => show win1_2.index t (1 : Fin 2) * 384 + 1 * q.val = q.val; rw [e1]; omega

/-- The hidden-gate weights' block is the whole array at every point. -/
theorem blk_whh (c : Dev nD) (t : Fin cfg1.N) (k : Fin 128) (q : Fin 384) :
    (iblk1 (F := Ideal) V c 3 t : Vec Ideal S128x384 .f32) (ix2 k q) = V c main_v11 (ix2 k q) := by
  have e0 := (idx_facts t).2.2.2.2.2.2.1
  have e1 := (idx_facts t).2.2.2.2.2.2.2.1
  unfold iblk1
  rw [View.read_apply]
  show V c main_v11 _ = V c main_v11 _
  congr 1
  funext a
  apply Fin.ext
  match a with
  | ⟨0, _⟩ => show win1_3.index t (0 : Fin 2) * 128 + 1 * k.val = k.val; rw [e0]; omega
  | ⟨1, _⟩ => show win1_3.index t (1 : Fin 2) * 384 + 1 * q.val = q.val; rw [e1]; omega

/-- The input-gate bias row's block is the whole array at every point. -/
theorem blk_bih (c : Dev nD) (t : Fin cfg1.N) (k : Fin 1) (q : Fin 384) :
    (iblk1 (F := Ideal) V c 4 t : Vec Ideal S1x384 .f32) (ix2 k q) = V c main_v12 (ix2 k q) := by
  have e0 := (idx_facts t).2.2.2.2.2.2.2.2.1
  have e1 := (idx_facts t).2.2.2.2.2.2.2.2.2.1
  unfold iblk1
  rw [View.read_apply]
  show V c main_v12 _ = V c main_v12 _
  congr 1
  funext a
  apply Fin.ext
  match a with
  | ⟨0, _⟩ => show win1_4.index t (0 : Fin 2) * 1 + 1 * k.val = k.val; rw [e0]; omega
  | ⟨1, _⟩ => show win1_4.index t (1 : Fin 2) * 384 + 1 * q.val = q.val; rw [e1]; omega

/-- The hidden-gate bias row's block is the whole array at every point. -/
theorem blk_bhh (c : Dev nD) (t : Fin cfg1.N) (k : Fin 1) (q : Fin 384) :
    (iblk1 (F := Ideal) V c 5 t : Vec Ideal S1x384 .f32) (ix2 k q) = V c main_v13 (ix2 k q) := by
  have e0 := (idx_facts t).2.2.2.2.2.2.2.2.2.2.1
  have e1 := (idx_facts t).2.2.2.2.2.2.2.2.2.2.2.1
  unfold iblk1
  rw [View.read_apply]
  show V c main_v13 _ = V c main_v13 _
  congr 1
  funext a
  apply Fin.ext
  match a with
  | ⟨0, _⟩ => show win1_5.index t (0 : Fin 2) * 1 + 1 * k.val = k.val; rw [e0]; omega
  | ⟨1, _⟩ => show win1_5.index t (1 : Fin 2) * 384 + 1 * q.val = q.val; rw [e1]; omega

/-- The message weights' block is the whole array at every point. -/
theorem blk_wmsg (c : Dev nD) (t : Fin cfg1.N) (k : Fin 128) (q : Fin 128) :
    (iblk1 (F := Ideal) V c 6 t : Vec Ideal S128x128 .f32) (ix2 k q) = V c main_arg9 (ix2 k q) := by
  have e0 := (idx_facts t).2.2.2.2.2.2.2.2.2.2.2.2.1
  have e1 := (idx_facts t).2.2.2.2.2.2.2.2.2.2.2.2.2.1
  unfold iblk1
  rw [View.read_apply]
  show V c main_arg9 _ = V c main_arg9 _
  congr 1
  funext a
  apply Fin.ext
  match a with
  | ⟨0, _⟩ => show win1_6.index t (0 : Fin 2) * 128 + 1 * k.val = k.val; rw [e0]; omega
  | ⟨1, _⟩ => show win1_6.index t (1 : Fin 2) * 128 + 1 * q.val = q.val; rw [e1]; omega

/-- Row p of the GRU payload at point t is the GRU update of row 2000·t + p of the arrays. -/
theorem pay_h1 (c : Dev nD) (t : Fin cfg1.N) (p : Fin 2000) (r : Fin 50000) (hr : r.val = 2000 * t.val + p.val)
    (j : Fin 128) :
    k1_pay2 (F := Ideal) (iblk1 V c 0 t) (iblk1 V c 1 t) (iblk1 V c 2 t) (iblk1 V c 3 t) (iblk1 V c 4 t) (iblk1 V c 5 t) (ix2 p j)
      = h1At V c r j := by
  refine (Pay.k1_pay2_at _ _ _ _ _ _ p j).trans ?_
  simp only [blk_agg V c t p _ r hr, blk_h V c t p _ r hr, blk_wih V c t, blk_whh V c t, blk_bih V c t, blk_bhh V c t]

/-- The whole new hidden state: entry i is the GRU update of row i 0 read at column i 1. -/
abbrev G7 (c : Dev nD) : S50000x128.Idx → EReal :=
  fun i => h1At V c ⟨(i 0).val, idx2_lt0 i⟩ ⟨(i 1).val, idx2_lt1 i⟩

/-- The whole message projection: entry i is row i 0 of the new hidden state against W_msg1, column i 1. -/
abbrev G8 (c : Dev nD) : S50000x128.Idx → EReal :=
  fun i => Cert.Spec.lin (fun k => h1At V c ⟨(i 0).val, idx2_lt0 i⟩ k) (fun k j' => V c main_arg9 (ix2 k j'))
    ⟨(i 1).val, idx2_lt1 i⟩

/-- Entry (p, q) of an output block at point t sits at entry (2000·t + p, q) of its array. -/
theorem emb7 (t : Fin cfg1.N) (p : Fin 2000) (q : Fin 128) (r : Fin 50000) (hr : r.val = 2000 * t.val + p.val) :
    ((cfg1.win 7).blk t).view.emb (ix2 p q) = ix2 r q := by
  have e0 := (idx_facts t).2.2.2.2.2.2.2.2.2.2.2.2.2.2.1
  have e1 := (idx_facts t).2.2.2.2.2.2.2.2.2.2.2.2.2.2.2.1
  funext a
  apply Fin.ext
  match a with
  | ⟨0, _⟩ => show win1_7.index t (0 : Fin 2) * 2000 + 1 * p.val = r.val; rw [e0, hr]; omega
  | ⟨1, _⟩ => show win1_7.index t (1 : Fin 2) * 128 + 1 * q.val = q.val; rw [e1]; omega

theorem emb8 (t : Fin cfg1.N) (p : Fin 2000) (q : Fin 128) (r : Fin 50000) (hr : r.val = 2000 * t.val + p.val) :
    ((cfg1.win 8).blk t).view.emb (ix2 p q) = ix2 r q := by
  have e0 := (idx_facts t).2.2.2.2.2.2.2.2.2.2.2.2.2.2.2.2.1
  have e1 := (idx_facts t).2.2.2.2.2.2.2.2.2.2.2.2.2.2.2.2.2
  funext a
  apply Fin.ext
  match a with
  | ⟨0, _⟩ => show win1_8.index t (0 : Fin 2) * 2000 + 1 * p.val = r.val; rw [e0, hr]; omega
  | ⟨1, _⟩ => show win1_8.index t (1 : Fin 2) * 128 + 1 * q.val = q.val; rw [e1]; omega

/-- A row of a block at point t is a row of the array. -/
theorem row_lt (t : Fin cfg1.N) (p : Fin 2000) : 2000 * t.val + p.val < 50000 := by
  have hN : cfg1.N = 25 := N_1
  have ht := t.isLt
  have hp := p.isLt
  omega

/-- What point t writes back to the new hidden state is block t of G7. -/
theorem flushed7_eq (c : Dev nD) (t : Fin cfg1.N) :
    (dat1 (F := Ideal) V c).flushed 7 t = ((cfg1.win 7).blk t).view.read (Elt Ideal) (G7 V c) := by
  show (cfg1.win 7).cut (grid1.coords t) ((dat1 V c).after 7 t) = _
  rw [after1_7]
  unfold out1_7
  rw [View.canon_unit_zero hz]
  simp only [View.ld_unit_zero (S := S2000x128) hz, View.ld_unit_zero (S := S128x384) hz, View.ld_unit_zero (S := S1x384) hz]
  funext y
  obtain ⟨p, q, rfl⟩ : ∃ (p : Fin 2000) (q : Fin 128), y = ix2 p q := ⟨y 0, y 1, eq_ix2 y⟩
  rw [View.read_apply, emb7 t p q ⟨2000 * t.val + p.val, row_lt t p⟩ rfl]
  exact pay_h1 V c t p ⟨2000 * t.val + p.val, row_lt t p⟩ rfl q

/-- What point t writes back to the message projection is block t of G8. -/
theorem flushed8_eq (c : Dev nD) (t : Fin cfg1.N) :
    (dat1 (F := Ideal) V c).flushed 8 t = ((cfg1.win 8).blk t).view.read (Elt Ideal) (G8 V c) := by
  show (cfg1.win 8).cut (grid1.coords t) ((dat1 V c).after 8 t) = _
  rw [after1_8]
  unfold out1_8
  rw [View.canon_unit_zero hz]
  simp only [View.ld_unit_zero (S := S2000x128) hz, View.ld_unit_zero (S := S128x384) hz, View.ld_unit_zero (S := S1x384) hz,
    View.ld_unit_zero (S := S128x128) hz]
  funext y
  obtain ⟨p, q, rfl⟩ : ∃ (p : Fin 2000) (q : Fin 128), y = ix2 p q := ⟨y 0, y 1, eq_ix2 y⟩
  rw [View.read_apply, emb8 t p q ⟨2000 * t.val + p.val, row_lt t p⟩ rfl]
  refine (Pay.k1_pay1_at _ _ p q).trans ?_
  simp only [pay_h1 V c t p ⟨2000 * t.val + p.val, row_lt t p⟩ rfl, blk_wmsg V c t]
  rfl

/-- An index of the array is in point t's block of window 7 iff each coordinate is in the block's range on its axis. -/
theorem mem_blk7 (t : Fin cfg1.N) (i : S50000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v14_0).slice (win1_7.rect t)).set ↔ _
  rw [View.set_slice_whole, Rect.mem_set_unit]
  exact Iff.rfl

/-- Row i 0 lies in the block of point (i 0) / 2000, which is written back: the 25 row blocks tile the array. -/
theorem cover7 (i : S50000x128.Idx) :
    ∃ t : Fin cfg1.N, (cfg1.win 7).flush t = true ∧ i ∈ ((cfg1.win 7).blk t).view.set := by
  have hi0 : (i 0).val < 50000 := idx2_lt0 i
  have hi1 : (i 1).val < 128 := idx2_lt1 i
  have hN : cfg1.N = 25 := N_1
  have ht : (i 0).val / 2000 < cfg1.N := by rw [hN]; omega
  have e0 := (idx_facts ⟨(i 0).val / 2000, ht⟩).2.2.2.2.2.2.2.2.2.2.2.2.2.2.1
  have e1 := (idx_facts ⟨(i 0).val / 2000, ht⟩).2.2.2.2.2.2.2.2.2.2.2.2.2.2.2.1
  refine ⟨⟨(i 0).val / 2000, ht⟩, flush1_7 _, ?_⟩
  rw [mem_blk7]
  intro a
  match a with
  | ⟨0, _⟩ =>
    show win1_7.index ⟨(i 0).val / 2000, ht⟩ (0 : Fin 2) * 2000 ≤ (i 0).val
      ∧ (i 0).val < win1_7.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_7.index ⟨(i 0).val / 2000, ht⟩ (1 : Fin 2) * 128 ≤ (i 1).val
      ∧ (i 1).val < win1_7.index ⟨(i 0).val / 2000, ht⟩ (1 : Fin 2) * 128 + 128
    rw [e1]
    omega

/-- An index of the array is in point t's block of window 8 iff each coordinate is in the block's range on its axis. -/
theorem mem_blk8 (t : Fin cfg1.N) (i : S50000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v14_1).slice (win1_8.rect t)).set ↔ _
  rw [View.set_slice_whole, Rect.mem_set_unit]
  exact Iff.rfl

/-- Row i 0 lies in the block of point (i 0) / 2000, which is written back: the 25 row blocks tile the array. -/
theorem cover8 (i : S50000x128.Idx) :
    ∃ t : Fin cfg1.N, (cfg1.win 8).flush t = true ∧ i ∈ ((cfg1.win 8).blk t).view.set := by
  have hi0 : (i 0).val < 50000 := idx2_lt0 i
  have hi1 : (i 1).val < 128 := idx2_lt1 i
  have hN : cfg1.N = 25 := N_1
  have ht : (i 0).val / 2000 < cfg1.N := by rw [hN]; omega
  have e0 := (idx_facts ⟨(i 0).val / 2000, ht⟩).2.2.2.2.2.2.2.2.2.2.2.2.2.2.2.2.1
  have e1 := (idx_facts ⟨(i 0).val / 2000, ht⟩).2.2.2.2.2.2.2.2.2.2.2.2.2.2.2.2.2
  refine ⟨⟨(i 0).val / 2000, ht⟩, flush1_8 _, ?_⟩
  rw [mem_blk8]
  intro a
  match a with
  | ⟨0, _⟩ =>
    show win1_8.index ⟨(i 0).val / 2000, ht⟩ (0 : Fin 2) * 2000 ≤ (i 0).val
      ∧ (i 0).val < win1_8.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_8.index ⟨(i 0).val / 2000, ht⟩ (1 : Fin 2) * 128 ≤ (i 1).val
      ∧ (i 1).val < win1_8.index ⟨(i 0).val / 2000, ht⟩ (1 : Fin 2) * 128 + 128
    rw [e1]
    omega

/-- The new hidden state after the region is G7. -/
theorem final7 (c : Dev nD) : (dat1 (F := Ideal) V c).arrAt 7 cfg1.N = G7 V c :=
  (dat1 (F := Ideal) V c).arrAt_eq_of_cover 7 (G7 V c) (fun t _ => flushed7_eq V c t) cover7

/-- The message projection after the region is G8. -/
theorem final8 (c : Dev nD) : (dat1 (F := Ideal) V c).arrAt 8 cfg1.N = G8 V c :=
  (dat1 (F := Ideal) V c).arrAt_eq_of_cover 8 (G8 V c) (fun t _ => flushed8_eq V c t) cover8

/-- Entry (r, j) of h1 after the region: the GRU update of row r. -/
theorem arr_h1 (c : Dev nD) (r : Fin 50000) (j : Fin 128) :
    (dat1 (F := Ideal) V c).arrAt 7 cfg1.N (ix2 r j) = h1At V c r j := by
  rw [final7 V c]

/-- Entry (r, j) of m1 after the region: row r of h1 against W_msg1. -/
theorem arr_m1 (c : Dev nD) (r : Fin 50000) (j : Fin 128) :
    (dat1 (F := Ideal) V c).arrAt 8 cfg1.N (ix2 r j)
      = Cert.Spec.lin (fun k => h1At V c r k) (fun k j' => V c main_arg9 (ix2 k j')) j := by
  rw [final8 V c]

end Cert.KernelIdeal.Reg1

end
-- ==== Proof.Region2.lean ====
/-
  The last kernel's output array after its 25 grid points. Point t loads rows 2000·t … 2000·t+1999 of the
  aggregated messages and of the hidden state and the whole weights, and writes the same rows of
  out = GRU(agg, h)·Wout + b; the 25 row blocks tile the 50000 rows.
-/
import proofs.«424320_j26834955665843_1_alg».proof.Proof.Gen.KernelIdeal.Frame
import proofs.«424320_j26834955665843_1_alg».proof.Proof.Payload
import proofs.«424320_j26834955665843_1_alg».proof.Proof.PayloadGru
import Idealize.ShloMosaic.Lib.ValueIdx
import Idealize.ShloMosaic.Lib.Pipeline.Value

set_option maxRecDepth 16384

noncomputable section

namespace Cert.KernelIdeal.Reg2

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- Row r of the last hidden state, entry j. -/
abbrev h2At (c : Dev nD) (r : Fin 50000) (j : Fin 128) : EReal :=
  Cert.Spec.gruAt (fun k => V c main_v18 (ix2 r k)) (fun k => V c main_v14_0 (ix2 r k))
    (fun k q => V c main_v19 (ix2 k q)) (fun k q => V c main_v20 (ix2 k q))
    (fun q => V c main_v21 (ix2 0 q)) (fun q => V c main_v22 (ix2 0 q)) j

/-- The zero offset of a whole-buffer rectangle. -/
theorem hz : (![0, 0] : Fin 2 → Nat) = fun _ => 0 := funext fun a => by
  match a with | ⟨0, _⟩ => rfl | ⟨1, _⟩ => rfl

/-- The index maps over the grid: the row windows sit at block (t, 0), the weight and bias windows at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- Entry (p, k) of the message block at point t is entry (2000·t + p, k) of the aggregated messages. -/
theorem blk_agg (c : Dev nD) (t : Fin cfg2.N) (p : Fin 2000) (k : Fin 128) (r : Fin 50000)
    (hr : r.val = 2000 * t.val + p.val) :
    (iblk2 (F := Ideal) V c 0 t : Vec Ideal S2000x128 .f32) (ix2 p k) = V c main_v18 (ix2 r k) := by
  have e0 := (idx_facts t).1
  have e1 := (idx_facts t).2.1
  unfold iblk2
  rw [View.read_apply]
  show V c main_v18 _ = V c main_v18 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

/-- Entry (p, k) of the hidden block at point t is entry (2000·t + p, k) of the hidden state. -/
theorem blk_h (c : Dev nD) (t : Fin cfg2.N) (p : Fin 2000) (k : Fin 128) (r : Fin 50000)
    (hr : r.val = 2000 * t.val + p.val) :
    (iblk2 (F := Ideal) V c 1 t : Vec Ideal S2000x128 .f32) (ix2 p k) = V c main_v14_0 (ix2 r k) := by
  have e0 := (idx_facts t).2.2.1
  have e1 := (idx_facts t).2.2.2.1
  unfold iblk2
  rw [View.read_apply]
  show V c main_v14_0 _ = V c main_v14_0 _
  congr 1
  funext a
  apply Fin.ext
  match a with
  | ⟨0, _⟩ => show win2_1.index t (0 : Fin 2) * 2000 + 1 * p.val = r.val; rw [e0, hr]; omega
  | ⟨1, _⟩ => show win2_1.index t (1 : Fin 2) * 128 + 1 * k.val = k.val; rw [e1]; omega

/-- The input-gate weights' block is the whole array at every point. -/
theorem blk_wih (c : Dev nD) (t : Fin cfg2.N) (k : Fin 128) (q : Fin 384) :
    (iblk2 (F := Ideal) V c 2 t : Vec Ideal S128x384 .f32) (ix2 k q) = V c main_v19 (ix2 k q) := by
  have e0 := (idx_facts t).2.2.2.2.1
  have e1 := (idx_facts t).2.2.2.2.2.1
  unfold iblk2
  rw [View.read_apply]
  show V c main_v19 _ = V c main_v19 _
  congr 1
  funext a
  apply Fin.ext
  match a with
  | ⟨0, _⟩ => show win2_2.index t (0 : Fin 2) * 128 + 1 * k.val = k.val; rw [e0]; omega
  | ⟨1, _⟩ => show win2_2.index t (1 : Fin 2) * 384 + 1 * q.val = q.val; rw [e1]; omega

/-- The hidden-gate weights' block is the whole array at every point. -/
theorem blk_whh (c : Dev nD) (t : Fin cfg2.N) (k : Fin 128) (q : Fin 384) :
    (iblk2 (F := Ideal) V c 3 t : Vec Ideal S128x384 .f32) (ix2 k q) = V c main_v20 (ix2 k q) := by
  have e0 := (idx_facts t).2.2.2.2.2.2.1
  have e1 := (idx_facts t).2.2.2.2.2.2.2.1
  unfold iblk2
  rw [View.read_apply]
  show V c main_v20 _ = V c main_v20 _
  congr 1
  funext a
  apply Fin.ext
  match a with
  | ⟨0, _⟩ => show win2_3.index t (0 : Fin 2) * 128 + 1 * k.val = k.val; rw [e0]; omega
  | ⟨1, _⟩ => show win2_3.index t (1 : Fin 2) * 384 + 1 * q.val = q.val; rw [e1]; omega

/-- The input-gate bias row's block is the whole array at every point. -/
theorem blk_bih (c : Dev nD) (t : Fin cfg2.N) (k : Fin 1) (q : Fin 384) :
    (iblk2 (F := Ideal) V c 4 t : Vec Ideal S1x384 .f32) (ix2 k q) = V c main_v21 (ix2 k q) := by
  have e0 := (idx_facts t).2.2.2.2.2.2.2.2.1
  have e1 := (idx_facts t).2.2.2.2.2.2.2.2.2.1
  unfold iblk2
  rw [View.read_apply]
  show V c main_v21 _ = V c main_v21 _
  congr 1
  funext a
  apply Fin.ext
  match a with
  | ⟨0, _⟩ => show win2_4.index t (0 : Fin 2) * 1 + 1 * k.val = k.val; rw [e0]; omega
  | ⟨1, _⟩ => show win2_4.index t (1 : Fin 2) * 384 + 1 * q.val = q.val; rw [e1]; omega

/-- The hidden-gate bias row's block is the whole array at every point. -/
theorem blk_bhh (c : Dev nD) (t : Fin cfg2.N) (k : Fin 1) (q : Fin 384) :
    (iblk2 (F := Ideal) V c 5 t : Vec Ideal S1x384 .f32) (ix2 k q) = V c main_v22 (ix2 k q) := by
  have e0 := (idx_facts t).2.2.2.2.2.2.2.2.2.2.1
  have e1 := (idx_facts t).2.2.2.2.2.2.2.2.2.2.2.1
  unfold iblk2
  rw [View.read_apply]
  show V c main_v22 _ = V c main_v22 _
  congr 1
  funext a
  apply Fin.ext
  match a with
  | ⟨0, _⟩ => show win2_5.index t (0 : Fin 2) * 1 + 1 * k.val = k.val; rw [e0]; omega
  | ⟨1, _⟩ => show win2_5.index t (1 : Fin 2) * 384 + 1 * q.val = q.val; rw [e1]; omega

/-- The output weights' block is the whole array at every point. -/
theorem blk_wout (c : Dev nD) (t : Fin cfg2.N) (k : Fin 128) (q : Fin 32) :
    (iblk2 (F := Ideal) V c 6 t : Vec Ideal S128x32 .f32) (ix2 k q) = V c main_arg14 (ix2 k q) := by
  have e0 := (idx_facts t).2.2.2.2.2.2.2.2.2.2.2.2.1
  have e1 := (idx_facts t).2.2.2.2.2.2.2.2.2.2.2.2.2.1
  unfold iblk2
  rw [View.read_apply]
  show V c main_arg14 _ = V c main_arg14 _
  congr 1
  funext a
  apply Fin.ext
  match a with
  | ⟨0, _⟩ => show win2_6.index t (0 : Fin 2) * 128 + 1 * k.val = k.val; rw [e0]; omega
  | ⟨1, _⟩ => show win2_6.index t (1 : Fin 2) * 32 + 1 * q.val = q.val; rw [e1]; omega

/-- The output bias row's block is the whole array at every point. -/
theorem blk_bout (c : Dev nD) (t : Fin cfg2.N) (k : Fin 1) (q : Fin 32) :
    (iblk2 (F := Ideal) V c 7 t : Vec Ideal S1x32 .f32) (ix2 k q) = V c main_v23 (ix2 k q) := by
  have e0 := (idx_facts t).2.2.2.2.2.2.2.2.2.2.2.2.2.2.1
  have e1 := (idx_facts t).2.2.2.2.2.2.2.2.2.2.2.2.2.2.2.1
  unfold iblk2
  rw [View.read_apply]
  show V c main_v23 _ = V c main_v23 _
  congr 1
  funext a
  apply Fin.ext
  match a with
  | ⟨0, _⟩ => show win2_7.index t (0 : Fin 2) * 1 + 1 * k.val = k.val; rw [e0]; omega
  | ⟨1, _⟩ => show win2_7.index t (1 : Fin 2) * 32 + 1 * q.val = q.val; rw [e1]; omega

/-- Row p of the GRU payload at point t is the GRU update of row 2000·t + p of the arrays. -/
theorem pay_h2 (c : Dev nD) (t : Fin cfg2.N) (p : Fin 2000) (r : Fin 50000) (hr : r.val = 2000 * t.val + p.val)
    (j : Fin 128) :
    k2_pay2 (F := Ideal) (iblk2 V c 0 t) (iblk2 V c 1 t) (iblk2 V c 2 t) (iblk2 V c 3 t) (iblk2 V c 4 t) (iblk2 V c 5 t) (ix2 p j)
      = h2At V c r j := by
  refine (Pay.k2_pay2_at _ _ _ _ _ _ p j).trans ?_
  simp only [blk_agg V c t p _ r hr, blk_h V c t p _ r hr, blk_wih V c t, blk_whh V c t, blk_bih V c t, blk_bhh V c t]

/-- The whole result: entry i is row i 0 of the last hidden state against W_out plus the bias, column i 1. -/
abbrev G8 (c : Dev nD) : S50000x32.Idx → EReal :=
  fun i => Cert.Spec.outAt (fun k => h2At V c ⟨(i 0).val, idx2_lt0 i⟩ k) (fun k j' => V c main_arg14 (ix2 k j'))
    (fun j' => V c main_v23 (ix2 0 j')) ⟨(i 1).val, idx2_lt1 i⟩

/-- Entry (p, q) of the output block at point t sits at entry (2000·t + p, q) of the result. -/
theorem emb8 (t : Fin cfg2.N) (p : Fin 2000) (q : Fin 32) (r : Fin 50000) (hr : r.val = 2000 * t.val + p.val) :
    ((cfg2.win 8).blk t).view.emb (ix2 p q) = ix2 r q := by
  have e0 := (idx_facts t).2.2.2.2.2.2.2.2.2.2.2.2.2.2.2.2.1
  have e1 := (idx_facts t).2.2.2.2.2.2.2.2.2.2.2.2.2.2.2.2.2
  funext a
  apply Fin.ext
  match a with
  | ⟨0, _⟩ => show win2_8.index t (0 : Fin 2) * 2000 + 1 * p.val = r.val; rw [e0, hr]; omega
  | ⟨1, _⟩ => show win2_8.index t (1 : Fin 2) * 32 + 1 * q.val = q.val; rw [e1]; omega

/-- A row of a block at point t is a row of the array. -/
theorem row_lt (t : Fin cfg2.N) (p : Fin 2000) : 2000 * t.val + p.val < 50000 := by
  have hN : cfg2.N = 25 := N_2
  have ht := t.isLt
  have hp := p.isLt
  omega

/-- What point t writes back to the result is block t of G8. -/
theorem flushed8_eq (c : Dev nD) (t : Fin cfg2.N) :
    (dat2 (F := Ideal) V c).flushed 8 t = ((cfg2.win 8).blk t).view.read (Elt Ideal) (G8 V c) := by
  show (cfg2.win 8).cut (grid2.coords t) ((dat2 V c).after 8 t) = _
  rw [after2_8]
  unfold out2_8
  rw [View.canon_unit_zero hz]
  simp only [View.ld_unit_zero (S := S2000x128) hz, View.ld_unit_zero (S := S128x384) hz, View.ld_unit_zero (S := S1x384) hz,
    View.ld_unit_zero (S := S128x32) hz, View.ld_unit_zero (S := S1x32) hz]
  funext y
  obtain ⟨p, q, rfl⟩ : ∃ (p : Fin 2000) (q : Fin 32), y = ix2 p q := ⟨y 0, y 1, eq_ix2 y⟩
  rw [View.read_apply, emb8 t p q ⟨2000 * t.val + p.val, row_lt t p⟩ rfl]
  refine (Pay.k2_pay1_at _ _ _ p q).trans ?_
  simp only [pay_h2 V c t p ⟨2000 * t.val + p.val, row_lt t p⟩ rfl, blk_wout V c t, blk_bout V c t]
  rfl

/-- An index of the result is in point t's block iff each coordinate is in the block's range on its axis. -/
theorem mem_blk8 (t : Fin cfg2.N) (i : S50000x32.Idx) :
    i ∈ ((cfg2.win 8).blk t).view.set ↔ ∀ a : Fin 2, win2_8.index t a * S2000x32.size a ≤ (i a).val
      ∧ (i a).val < win2_8.index t a * S2000x32.size a + S2000x32.size a := by
  show i ∈ ((View.whole main_v24).slice (win2_8.rect t)).set ↔ _
  rw [View.set_slice_whole, Rect.mem_set_unit]
  exact Iff.rfl

/-- Row i 0 lies in the block of point (i 0) / 2000, which is written back: the 25 row blocks tile the result. -/
theorem cover8 (i : S50000x32.Idx) :
    ∃ t : Fin cfg2.N, (cfg2.win 8).flush t = true ∧ i ∈ ((cfg2.win 8).blk t).view.set := by
  have hi0 : (i 0).val < 50000 := idx2_lt0 i
  have hi1 : (i 1).val < 32 := idx2_lt1 i
  have hN : cfg2.N = 25 := N_2
  have ht : (i 0).val / 2000 < cfg2.N := by rw [hN]; omega
  have e0 := (idx_facts ⟨(i 0).val / 2000, ht⟩).2.2.2.2.2.2.2.2.2.2.2.2.2.2.2.2.1
  have e1 := (idx_facts ⟨(i 0).val / 2000, ht⟩).2.2.2.2.2.2.2.2.2.2.2.2.2.2.2.2.2
  refine ⟨⟨(i 0).val / 2000, ht⟩, flush2_8 _, ?_⟩
  rw [mem_blk8]
  intro a
  match a with
  | ⟨0, _⟩ =>
    show win2_8.index ⟨(i 0).val / 2000, ht⟩ (0 : Fin 2) * 2000 ≤ (i 0).val
      ∧ (i 0).val < win2_8.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win2_8.index ⟨(i 0).val / 2000, ht⟩ (1 : Fin 2) * 32 ≤ (i 1).val
      ∧ (i 1).val < win2_8.index ⟨(i 0).val / 2000, ht⟩ (1 : Fin 2) * 32 + 32
    rw [e1]
    omega

/-- The result after the region is G8. -/
theorem final8 (c : Dev nD) : (dat2 (F := Ideal) V c).arrAt 8 cfg2.N = G8 V c :=
  (dat2 (F := Ideal) V c).arrAt_eq_of_cover 8 (G8 V c) (fun t _ => flushed8_eq V c t) cover8

/-- Entry (r, j) of the result after the region: row r of the last hidden state against W_out, plus the bias. -/
theorem arr_out (c : Dev nD) (r : Fin 50000) (j : Fin 32) :
    (dat2 (F := Ideal) V c).arrAt 8 cfg2.N (ix2 r j)
      = Cert.Spec.outAt (fun k => h2At V c r k) (fun k j' => V c main_arg14 (ix2 k j')) (fun j' => V c main_v23 (ix2 0 j')) j := by
  rw [final8 V c]

end Cert.KernelIdeal.Reg2

end
-- ==== Proof.RefLin.lean ====
/-
  The reference's dense stages read at one entry: the input projection with bias and ReLU, the two message
  projections and the output projection are each the row function of Spec applied to row r of the stage's
  input (the host's dot_general is the plain sum over the contracted axis; a bias is broadcast along the rows).
-/
import proofs.«424320_j26834955665843_1_alg».proof.Proof.Gen.ReferenceIdeal.Read
import proofs.«424320_j26834955665843_1_alg».proof.Proof.Spec
import Idealize.ShloMosaic.Lib.ValueIdx
import Idealize.ShloMosaic.Lib.Pipeline.Value
import Idealize.ShloMosaic.PureOps.Ideal.Laws

noncomputable section

namespace Cert.ReferenceIdeal.RefLin

open Idealize.ShloMosaic Idealize.ShloMosaic.ValueIdx Cert.ReferenceIdeal Cert.ReferenceIdeal.Read

variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 : (⟨S384x128, .f32⟩ : BufTy).Contents (Elt Ideal)) (x7 x8 : (⟨S384, .f32⟩ : BufTy).Contents (Elt Ideal)) (x9 : (⟨S128x128, .f32⟩ : BufTy).Contents (Elt Ideal))
  (x10 x11 : (⟨S384x128, .f32⟩ : BufTy).Contents (Elt Ideal)) (x12 x13 : (⟨S384, .f32⟩ : BufTy).Contents (Elt Ideal)) (x14 : (⟨S128x32, .f32⟩ : BufTy).Contents (Elt Ideal)) (x15 : (⟨S32, .f32⟩ : BufTy).Contents (Elt Ideal))

/-- The left operand of each dense stage at entry (r, j) is read along row r. -/
theorem lidx4_ix2 (r : Fin 50000) (j k : Fin 128) : lidx_main_v4 (ix2 r j) k = ix2 r k :=
  funext fun a => Fin.ext (by match a with | ⟨0, _⟩ => rfl | ⟨1, _⟩ => rfl)
theorem lidx9_ix2 (r : Fin 50000) (j k : Fin 128) : lidx_main_v9 (ix2 r j) k = ix2 r k :=
  funext fun a => Fin.ext (by match a with | ⟨0, _⟩ => rfl | ⟨1, _⟩ => rfl)
theorem lidx58_ix2 (r : Fin 50000) (j k : Fin 128) : lidx_main_v58 (ix2 r j) k = ix2 r k :=
  funext fun a => Fin.ext (by match a with | ⟨0, _⟩ => rfl | ⟨1, _⟩ => rfl)
theorem lidx107_ix2 (r : Fin 50000) (j : Fin 32) (k : Fin 128) : lidx_main_v107 (ix2 r j) k = ix2 r k :=
  funext fun a => Fin.ext (by match a with | ⟨0, _⟩ => rfl | ⟨1, _⟩ => rfl)

/-- The right operand (the weights) at entry (r, j) is read along column j. -/
theorem ridx4_ix2 (r : Fin 50000) (j k : Fin 128) : ridx_main_v4 (ix2 r j) k = ix2 k j :=
  funext fun a => Fin.ext (by match a with | ⟨0, _⟩ => rfl | ⟨1, _⟩ => rfl)
theorem ridx9_ix2 (r : Fin 50000) (j k : Fin 128) : ridx_main_v9 (ix2 r j) k = ix2 k j :=
  funext fun a => Fin.ext (by match a with | ⟨0, _⟩ => rfl | ⟨1, _⟩ => rfl)
theorem ridx58_ix2 (r : Fin 50000) (j k : Fin 128) : ridx_main_v58 (ix2 r j) k = ix2 k j :=
  funext fun a => Fin.ext (by match a with | ⟨0, _⟩ => rfl | ⟨1, _⟩ => rfl)
theorem ridx107_ix2 (r : Fin 50000) (j : Fin 32) (k : Fin 128) : ridx_main_v107 (ix2 r j) k = ix2 k j :=
  funext fun a => Fin.ext (by match a with | ⟨0, _⟩ => rfl | ⟨1, _⟩ => rfl)

/-- A bias broadcast along the rows is read at its column. -/
theorem idx6_ix2 (r : Fin 50000) (j : Fin 128) : idx_main_v6 (ix2 r j) = ix2 (0 : Fin 1) j :=
  funext fun a => Fin.ext (by match a with | ⟨0, _⟩ => rfl | ⟨1, _⟩ => rfl)
theorem idx5_ix2 (z : Fin 1) (j : Fin 128) : idx_main_v5 (ix2 z j) = ix1 j :=
  funext fun a => Fin.ext (by match a with | ⟨0, _⟩ => rfl)
theorem idx109_ix2 (r : Fin 50000) (j : Fin 32) : idx_main_v109 (ix2 r j) = ix2 (0 : Fin 1) j :=
  funext fun a => Fin.ext (by match a with | ⟨0, _⟩ => rfl | ⟨1, _⟩ => rfl)
theorem idx108_ix2 (z : Fin 1) (j : Fin 32) : idx_main_v108 (ix2 z j) = ix1 j :=
  funext fun a => Fin.ext (by match a with | ⟨0, _⟩ => rfl)

/-- Entry (r, j) of h0 = relu(x·Win + b). -/
theorem ref_h0 (r : Fin 50000) (j : Fin 128) :
    val_main_v8 (F := Ideal) x0 x2 x3 (ix2 r j)
      = Cert.Spec.h0At (fun k => x0 (ix2 r k)) (fun k j' => x2 (ix2 k j')) (fun j' => x3 (ix1 j')) j := by
  rw [val_main_v8_apply, val_main_v7_apply, val_main_v4_apply, val_main_v6_apply, val_main_v5_apply,
    val_main_call0_v0_apply, val_main_call0_cst_apply]
  simp only [lidx4_ix2, ridx4_ix2, idx6_ix2, idx5_ix2, Cert.Spec.h0At, Cert.Spec.lin,
    Ideal.maximumf_def, Ideal.addf_def, Ideal.ofBits_def]

/-- Entry (r, j) of m0 = h0·W_msg0. -/
theorem ref_m0 (r : Fin 50000) (j : Fin 128) :
    val_main_v9 (F := Ideal) x0 x2 x3 x4 (ix2 r j)
      = Cert.Spec.lin (fun k => val_main_v8 (F := Ideal) x0 x2 x3 (ix2 r k)) (fun k j' => x4 (ix2 k j')) j := by
  rw [val_main_v9_apply]
  simp only [lidx9_ix2, ridx9_ix2, Cert.Spec.lin]

/-- Entry (r, j) of m1 = h1·W_msg1. -/
theorem ref_m1 (r : Fin 50000) (j : Fin 128) :
    val_main_v58 (F := Ideal) x0 x1 x2 x3 x4 x5 x6 x7 x8 x9 (ix2 r j)
      = Cert.Spec.lin (fun k => val_main_v57 (F := Ideal) x0 x1 x2 x3 x4 x5 x6 x7 x8 (ix2 r k)) (fun k j' => x9 (ix2 k j')) j := by
  rw [val_main_v58_apply]
  simp only [lidx58_ix2, ridx58_ix2, Cert.Spec.lin]

/-- Entry (r, j) of the result h2·W_out + b_out. -/
theorem ref_out (r : Fin 50000) (j : Fin 32) :
    val_main_v110 (F := Ideal) x0 x1 x2 x3 x4 x5 x6 x7 x8 x9 x10 x11 x12 x13 x14 x15 (ix2 r j)
      = Cert.Spec.outAt (fun k => val_main_v106 (F := Ideal) x0 x1 x2 x3 x4 x5 x6 x7 x8 x9 x10 x11 x12 x13 (ix2 r k))
          (fun k j' => x14 (ix2 k j')) (fun j' => x15 (ix1 j')) j := by
  rw [val_main_v110_apply, val_main_v107_apply, val_main_v109_apply, val_main_v108_apply]
  simp only [lidx107_ix2, ridx107_ix2, idx109_ix2, idx108_ix2, Cert.Spec.outAt, Cert.Spec.lin, Ideal.addf_def]

end Cert.ReferenceIdeal.RefLin

end
-- ==== Proof.RefGru.lean ====
/-
  The reference's two GRU layers read at one entry: entry (r, j) of the new hidden state is Spec.gruAt of
  row r of the aggregated messages and of row r of the old hidden state, with the gate weights read
  transposed (the reference transposes them before its dot_general) and the biases broadcast along the
  rows; jax's sigmoid is spelt negate, exponential, 1 + ·, 1 / ·, which is the logistic function.
-/
import proofs.«424320_j26834955665843_1_alg».proof.Proof.Gen.ReferenceIdeal.Read
import proofs.«424320_j26834955665843_1_alg».proof.Proof.Spec
import Idealize.ShloMosaic.Lib.ValueIdx
import Idealize.ShloMosaic.Lib.Pipeline.Value
import Idealize.ShloMosaic.PureOps.Ideal.Laws

noncomputable section

namespace Cert.ReferenceIdeal.RefGru

open Idealize.ShloMosaic Idealize.ShloMosaic.ValueIdx Cert.ReferenceIdeal Cert.ReferenceIdeal.Read

variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 : (⟨S384x128, .f32⟩ : BufTy).Contents (Elt Ideal)) (x7 x8 : (⟨S384, .f32⟩ : BufTy).Contents (Elt Ideal)) (x9 : (⟨S128x128, .f32⟩ : BufTy).Contents (Elt Ideal))
  (x10 x11 : (⟨S384x128, .f32⟩ : BufTy).Contents (Elt Ideal)) (x12 x13 : (⟨S384, .f32⟩ : BufTy).Contents (Elt Ideal)) (x14 : (⟨S128x32, .f32⟩ : BufTy).Contents (Elt Ideal)) (x15 : (⟨S32, .f32⟩ : BufTy).Contents (Elt Ideal))

/-- The f32 word 0x3F800000 (sign 0, exponent 127, fraction 0) is the extended real 1. -/
private theorem one_word : Ideal.ofBits .f32 0x3F800000#32 = (1 : EReal) := by
  simp [Ideal.ofBits, Ideal.ieee]
  rw [← EReal.coe_mul, ← EReal.coe_one, EReal.coe_eq_coe_iff]
  norm_num

/-- gi of layer 1 at (r, q): column q of the message row times the transposed weights, plus the bias. -/
private theorem gi1 (r : Fin 50000) (q : Fin 384) :
    val_main_v24 (F := Ideal) x0 x1 x2 x3 x4 x5 x7 (ix2 r q)
      = Cert.Spec.lin (fun k => val_main_v19 (F := Ideal) x0 x1 x2 x3 x4 (ix2 r k)) (fun k q => x5 (ix2 q k)) q + x7 (ix1 q) := by
  rw [val_main_v24_apply, val_main_v21_apply, val_main_v23_apply, val_main_v22_apply]
  have e1 : ∀ k : Fin 128, lidx_main_v21 (ix2 r q) k = ix2 r k := fun k => funext fun a => Fin.ext (by match a with | ⟨0, _⟩ => rfl | ⟨1, _⟩ => rfl)
  have e2 : ∀ k : Fin 128, idx_main_v20 (ridx_main_v21 (ix2 r q) k) = ix2 q k := fun k => funext fun a => Fin.ext (by match a with | ⟨0, _⟩ => rfl | ⟨1, _⟩ => rfl)
  have e3 : idx_main_v22 (idx_main_v23 (ix2 r q)) = ix1 q :=
    funext fun a => Fin.ext (by match a with | ⟨0, _⟩ => rfl)
  rw [e3]
  simp only [Ideal.addf_def]
  unfold Cert.Spec.lin
  refine congrArg (· + x7 (ix1 q)) ?_
  refine Finset.sum_congr rfl fun k _ => ?_
  rw [val_main_v20_apply, e1, e2]

/-- gh of layer 1 at (r, q): column q of the hidden row times the transposed weights, plus the bias. -/
private theorem gh1 (r : Fin 50000) (q : Fin 384) :
    val_main_v29 (F := Ideal) x0 x2 x3 x6 x8 (ix2 r q)
      = Cert.Spec.lin (fun k => val_main_v8 (F := Ideal) x0 x2 x3 (ix2 r k)) (fun k q => x6 (ix2 q k)) q + x8 (ix1 q) := by
  rw [val_main_v29_apply, val_main_v26_apply, val_main_v28_apply, val_main_v27_apply]
  have e1 : ∀ k : Fin 128, lidx_main_v26 (ix2 r q) k = ix2 r k := fun k => funext fun a => Fin.ext (by match a with | ⟨0, _⟩ => rfl | ⟨1, _⟩ => rfl)
  have e2 : ∀ k : Fin 128, idx_main_v25 (ridx_main_v26 (ix2 r q) k) = ix2 q k := fun k => funext fun a => Fin.ext (by match a with | ⟨0, _⟩ => rfl | ⟨1, _⟩ => rfl)
  have e3 : idx_main_v27 (idx_main_v28 (ix2 r q)) = ix1 q :=
    funext fun a => Fin.ext (by match a with | ⟨0, _⟩ => rfl)
  rw [e3]
  simp only [Ideal.addf_def]
  unfold Cert.Spec.lin
  refine congrArg (· + x8 (ix1 q)) ?_
  refine Finset.sum_congr rfl fun k _ => ?_
  rw [val_main_v25_apply, e1, e2]

/-! The six slices of layer 1 read the gate columns. -/

private theorem e30 (r : Fin 50000) (j : Fin 128) : idx_main_v30 (ix2 r j) = ix2 r (Cert.Spec.colR j) :=
  funext fun a => Fin.ext (by
    match a with
    | ⟨0, _⟩ => rfl
    | ⟨1, _⟩ => exact (Nat.zero_add _).symm)

private theorem e31 (r : Fin 50000) (j : Fin 128) : idx_main_v31 (ix2 r j) = ix2 r (Cert.Spec.colZ j) :=
  funext fun a => Fin.ext (by
    match a with
    | ⟨0, _⟩ => rfl
    | ⟨1, _⟩ => rfl)

private theorem e32 (r : Fin 50000) (j : Fin 128) : idx_main_v32 (ix2 r j) = ix2 r (Cert.Spec.colN j) :=
  funext fun a => Fin.ext (by
    match a with
    | ⟨0, _⟩ => rfl
    | ⟨1, _⟩ => rfl)

private theorem e33 (r : Fin 50000) (j : Fin 128) : idx_main_v33 (ix2 r j) = ix2 r (Cert.Spec.colR j) :=
  funext fun a => Fin.ext (by
    match a with
    | ⟨0, _⟩ => rfl
    | ⟨1, _⟩ => exact (Nat.zero_add _).symm)

private theorem e34 (r : Fin 50000) (j : Fin 128) : idx_main_v34 (ix2 r j) = ix2 r (Cert.Spec.colZ j) :=
  funext fun a => Fin.ext (by
    match a with
    | ⟨0, _⟩ => rfl
    | ⟨1, _⟩ => rfl)

private theorem e35 (r : Fin 50000) (j : Fin 128) : idx_main_v35 (ix2 r j) = ix2 r (Cert.Spec.colN j) :=
  funext fun a => Fin.ext (by
    match a with
    | ⟨0, _⟩ => rfl
    | ⟨1, _⟩ => rfl)

/-- The reset gate of layer 1: negate, exponential, 1 + ·, 1 / · is the logistic function. -/
private theorem rg1 (r : Fin 50000) (j : Fin 128) :
    val_main_v42 (F := Ideal) x0 x1 x2 x3 x4 x5 x6 x7 x8 (ix2 r j)
      = Ideal.logistic ((Cert.Spec.lin (fun k => val_main_v19 (F := Ideal) x0 x1 x2 x3 x4 (ix2 r k)) (fun k q => x5 (ix2 q k)) (Cert.Spec.colR j) + x7 (ix1 (Cert.Spec.colR j))) + (Cert.Spec.lin (fun k => val_main_v8 (F := Ideal) x0 x2 x3 (ix2 r k)) (fun k q => x6 (ix2 q k)) (Cert.Spec.colR j) + x8 (ix1 (Cert.Spec.colR j)))) := by
  rw [val_main_v42_apply, val_main_v41_apply, val_main_cst_2_apply, val_main_v40_apply, val_main_v39_apply, val_main_cst_1_apply,
    val_main_v38_apply, val_main_v37_apply, val_main_v36_apply, val_main_v30_apply, val_main_v33_apply, e30, e33, gi1, gh1]
  simp only [Ideal.hostDivf_def, Ideal.addf_def, Ideal.hostUnary_exp_def, Ideal.hostNegf_def, Ideal.negf_def,
    Ideal.ofBits_def, one_word]
  rfl

/-- The update gate of layer 1. -/
private theorem zg1 (r : Fin 50000) (j : Fin 128) :
    val_main_v49 (F := Ideal) x0 x1 x2 x3 x4 x5 x6 x7 x8 (ix2 r j)
      = Ideal.logistic ((Cert.Spec.lin (fun k => val_main_v19 (F := Ideal) x0 x1 x2 x3 x4 (ix2 r k)) (fun k q => x5 (ix2 q k)) (Cert.Spec.colZ j) + x7 (ix1 (Cert.Spec.colZ j))) + (Cert.Spec.lin (fun k => val_main_v8 (F := Ideal) x0 x2 x3 (ix2 r k)) (fun k q => x6 (ix2 q k)) (Cert.Spec.colZ j) + x8 (ix1 (Cert.Spec.colZ j)))) := by
  rw [val_main_v49_apply, val_main_v48_apply, val_main_cst_4_apply, val_main_v47_apply, val_main_v46_apply, val_main_cst_3_apply,
    val_main_v45_apply, val_main_v44_apply, val_main_v43_apply, val_main_v31_apply, val_main_v34_apply, e31, e34, gi1, gh1]
  simp only [Ideal.hostDivf_def, Ideal.addf_def, Ideal.hostUnary_exp_def, Ideal.hostNegf_def, Ideal.negf_def,
    Ideal.ofBits_def, one_word]
  rfl

/-- The candidate of layer 1: tanh (gi_n + r · gh_n). -/
private theorem ng1 (r : Fin 50000) (j : Fin 128) :
    val_main_v52 (F := Ideal) x0 x1 x2 x3 x4 x5 x6 x7 x8 (ix2 r j)
      = Ideal.tanh ((Cert.Spec.lin (fun k => val_main_v19 (F := Ideal) x0 x1 x2 x3 x4 (ix2 r k)) (fun k q => x5 (ix2 q k)) (Cert.Spec.colN j) + x7 (ix1 (Cert.Spec.colN j)))
          + Ideal.logistic ((Cert.Spec.lin (fun k => val_main_v19 (F := Ideal) x0 x1 x2 x3 x4 (ix2 r k)) (fun k q => x5 (ix2 q k)) (Cert.Spec.colR j) + x7 (ix1 (Cert.Spec.colR j))) + (Cert.Spec.lin (fun k => val_main_v8 (F := Ideal) x0 x2 x3 (ix2 r k)) (fun k q => x6 (ix2 q k)) (Cert.Spec.colR j) + x8 (ix1 (Cert.Spec.colR j))))
            * (Cert.Spec.lin (fun k => val_main_v8 (F := Ideal) x0 x2 x3 (ix2 r k)) (fun k q => x6 (ix2 q k)) (Cert.Spec.colN j) + x8 (ix1 (Cert.Spec.colN j)))) := by
  rw [val_main_v52_apply, val_main_v51_apply, val_main_v50_apply, rg1, val_main_v32_apply, val_main_v35_apply, e32, e35, gi1, gh1]
  simp only [Ideal.addf_def, Ideal.mulf_def, Ideal.hostUnary_tanh_def]

/-- Entry (r, j) of h1, the first GRU layer. -/
theorem ref_h1 (r : Fin 50000) (j : Fin 128) :
    val_main_v57 (F := Ideal) x0 x1 x2 x3 x4 x5 x6 x7 x8 (ix2 r j)
      = Cert.Spec.gruAt (fun k => val_main_v19 (F := Ideal) x0 x1 x2 x3 x4 (ix2 r k)) (fun k => val_main_v8 (F := Ideal) x0 x2 x3 (ix2 r k))
          (fun k q => x5 (ix2 q k)) (fun k q => x6 (ix2 q k)) (fun q => x7 (ix1 q)) (fun q => x8 (ix1 q)) j := by
  rw [val_main_v57_apply, val_main_v55_apply, val_main_v54_apply, val_main_v53_apply, val_main_cst_5_apply, val_main_v56_apply,
    zg1, ng1]
  simp only [Ideal.addf_def, Ideal.mulf_def, Ideal.subf_def, Ideal.ofBits_def]
  rfl

/-- gi of layer 2 at (r, q): column q of the message row times the transposed weights, plus the bias. -/
private theorem gi2 (r : Fin 50000) (q : Fin 384) :
    val_main_v73 (F := Ideal) x0 x1 x2 x3 x4 x5 x6 x7 x8 x9 x10 x12 (ix2 r q)
      = Cert.Spec.lin (fun k => val_main_v68 (F := Ideal) x0 x1 x2 x3 x4 x5 x6 x7 x8 x9 (ix2 r k)) (fun k q => x10 (ix2 q k)) q + x12 (ix1 q) := by
  rw [val_main_v73_apply, val_main_v70_apply, val_main_v72_apply, val_main_v71_apply]
  have e1 : ∀ k : Fin 128, lidx_main_v70 (ix2 r q) k = ix2 r k := fun k => funext fun a => Fin.ext (by match a with | ⟨0, _⟩ => rfl | ⟨1, _⟩ => rfl)
  have e2 : ∀ k : Fin 128, idx_main_v69 (ridx_main_v70 (ix2 r q) k) = ix2 q k := fun k => funext fun a => Fin.ext (by match a with | ⟨0, _⟩ => rfl | ⟨1, _⟩ => rfl)
  have e3 : idx_main_v71 (idx_main_v72 (ix2 r q)) = ix1 q :=
    funext fun a => Fin.ext (by match a with | ⟨0, _⟩ => rfl)
  rw [e3]
  simp only [Ideal.addf_def]
  unfold Cert.Spec.lin
  refine congrArg (· + x12 (ix1 q)) ?_
  refine Finset.sum_congr rfl fun k _ => ?_
  rw [val_main_v69_apply, e1, e2]

/-- gh of layer 2 at (r, q): column q of the hidden row times the transposed weights, plus the bias. -/
private theorem gh2 (r : Fin 50000) (q : Fin 384) :
    val_main_v78 (F := Ideal) x0 x1 x2 x3 x4 x5 x6 x7 x8 x11 x13 (ix2 r q)
      = Cert.Spec.lin (fun k => val_main_v57 (F := Ideal) x0 x1 x2 x3 x4 x5 x6 x7 x8 (ix2 r k)) (fun k q => x11 (ix2 q k)) q + x13 (ix1 q) := by
  rw [val_main_v78_apply, val_main_v75_apply, val_main_v77_apply, val_main_v76_apply]
  have e1 : ∀ k : Fin 128, lidx_main_v75 (ix2 r q) k = ix2 r k := fun k => funext fun a => Fin.ext (by match a with | ⟨0, _⟩ => rfl | ⟨1, _⟩ => rfl)
  have e2 : ∀ k : Fin 128, idx_main_v74 (ridx_main_v75 (ix2 r q) k) = ix2 q k := fun k => funext fun a => Fin.ext (by match a with | ⟨0, _⟩ => rfl | ⟨1, _⟩ => rfl)
  have e3 : idx_main_v76 (idx_main_v77 (ix2 r q)) = ix1 q :=
    funext fun a => Fin.ext (by match a with | ⟨0, _⟩ => rfl)
  rw [e3]
  simp only [Ideal.addf_def]
  unfold Cert.Spec.lin
  refine congrArg (· + x13 (ix1 q)) ?_
  refine Finset.sum_congr rfl fun k _ => ?_
  rw [val_main_v74_apply, e1, e2]

/-! The six slices of layer 2 read the gate columns. -/

private theorem e79 (r : Fin 50000) (j : Fin 128) : idx_main_v79 (ix2 r j) = ix2 r (Cert.Spec.colR j) :=
  funext fun a => Fin.ext (by
    match a with
    | ⟨0, _⟩ => rfl
    | ⟨1, _⟩ => exact (Nat.zero_add _).symm)

private theorem e80 (r : Fin 50000) (j : Fin 128) : idx_main_v80 (ix2 r j) = ix2 r (Cert.Spec.colZ j) :=
  funext fun a => Fin.ext (by
    match a with
    | ⟨0, _⟩ => rfl
    | ⟨1, _⟩ => rfl)

private theorem e81 (r : Fin 50000) (j : Fin 128) : idx_main_v81 (ix2 r j) = ix2 r (Cert.Spec.colN j) :=
  funext fun a => Fin.ext (by
    match a with
    | ⟨0, _⟩ => rfl
    | ⟨1, _⟩ => rfl)

private theorem e82 (r : Fin 50000) (j : Fin 128) : idx_main_v82 (ix2 r j) = ix2 r (Cert.Spec.colR j) :=
  funext fun a => Fin.ext (by
    match a with
    | ⟨0, _⟩ => rfl
    | ⟨1, _⟩ => exact (Nat.zero_add _).symm)

private theorem e83 (r : Fin 50000) (j : Fin 128) : idx_main_v83 (ix2 r j) = ix2 r (Cert.Spec.colZ j) :=
  funext fun a => Fin.ext (by
    match a with
    | ⟨0, _⟩ => rfl
    | ⟨1, _⟩ => rfl)

private theorem e84 (r : Fin 50000) (j : Fin 128) : idx_main_v84 (ix2 r j) = ix2 r (Cert.Spec.colN j) :=
  funext fun a => Fin.ext (by
    match a with
    | ⟨0, _⟩ => rfl
    | ⟨1, _⟩ => rfl)

/-- The reset gate of layer 2: negate, exponential, 1 + ·, 1 / · is the logistic function. -/
private theorem rg2 (r : Fin 50000) (j : Fin 128) :
    val_main_v91 (F := Ideal) x0 x1 x2 x3 x4 x5 x6 x7 x8 x9 x10 x11 x12 x13 (ix2 r j)
      = Ideal.logistic ((Cert.Spec.lin (fun k => val_main_v68 (F := Ideal) x0 x1 x2 x3 x4 x5 x6 x7 x8 x9 (ix2 r k)) (fun k q => x10 (ix2 q k)) (Cert.Spec.colR j) + x12 (ix1 (Cert.Spec.colR j))) + (Cert.Spec.lin (fun k => val_main_v57 (F := Ideal) x0 x1 x2 x3 x4 x5 x6 x7 x8 (ix2 r k)) (fun k q => x11 (ix2 q k)) (Cert.Spec.colR j) + x13 (ix1 (Cert.Spec.colR j)))) := by
  rw [val_main_v91_apply, val_main_v90_apply, val_main_cst_10_apply, val_main_v89_apply, val_main_v88_apply, val_main_cst_9_apply,
    val_main_v87_apply, val_main_v86_apply, val_main_v85_apply, val_main_v79_apply, val_main_v82_apply, e79, e82, gi2, gh2]
  simp only [Ideal.hostDivf_def, Ideal.addf_def, Ideal.hostUnary_exp_def, Ideal.hostNegf_def, Ideal.negf_def,
    Ideal.ofBits_def, one_word]
  rfl

/-- The update gate of layer 2. -/
private theorem zg2 (r : Fin 50000) (j : Fin 128) :
    val_main_v98 (F := Ideal) x0 x1 x2 x3 x4 x5 x6 x7 x8 x9 x10 x11 x12 x13 (ix2 r j)
      = Ideal.logistic ((Cert.Spec.lin (fun k => val_main_v68 (F := Ideal) x0 x1 x2 x3 x4 x5 x6 x7 x8 x9 (ix2 r k)) (fun k q => x10 (ix2 q k)) (Cert.Spec.colZ j) + x12 (ix1 (Cert.Spec.colZ j))) + (Cert.Spec.lin (fun k => val_main_v57 (F := Ideal) x0 x1 x2 x3 x4 x5 x6 x7 x8 (ix2 r k)) (fun k q => x11 (ix2 q k)) (Cert.Spec.colZ j) + x13 (ix1 (Cert.Spec.colZ j)))) := by
  rw [val_main_v98_apply, val_main_v97_apply, val_main_cst_12_apply, val_main_v96_apply, val_main_v95_apply, val_main_cst_11_apply,
    val_main_v94_apply, val_main_v93_apply, val_main_v92_apply, val_main_v80_apply, val_main_v83_apply, e80, e83, gi2, gh2]
  simp only [Ideal.hostDivf_def, Ideal.addf_def, Ideal.hostUnary_exp_def, Ideal.hostNegf_def, Ideal.negf_def,
    Ideal.ofBits_def, one_word]
  rfl

/-- The candidate of layer 2: tanh (gi_n + r · gh_n). -/
private theorem ng2 (r : Fin 50000) (j : Fin 128) :
    val_main_v101 (F := Ideal) x0 x1 x2 x3 x4 x5 x6 x7 x8 x9 x10 x11 x12 x13 (ix2 r j)
      = Ideal.tanh ((Cert.Spec.lin (fun k => val_main_v68 (F := Ideal) x0 x1 x2 x3 x4 x5 x6 x7 x8 x9 (ix2 r k)) (fun k q => x10 (ix2 q k)) (Cert.Spec.colN j) + x12 (ix1 (Cert.Spec.colN j)))
          + Ideal.logistic ((Cert.Spec.lin (fun k => val_main_v68 (F := Ideal) x0 x1 x2 x3 x4 x5 x6 x7 x8 x9 (ix2 r k)) (fun k q => x10 (ix2 q k)) (Cert.Spec.colR j) + x12 (ix1 (Cert.Spec.colR j))) + (Cert.Spec.lin (fun k => val_main_v57 (F := Ideal) x0 x1 x2 x3 x4 x5 x6 x7 x8 (ix2 r k)) (fun k q => x11 (ix2 q k)) (Cert.Spec.colR j) + x13 (ix1 (Cert.Spec.colR j))))
            * (Cert.Spec.lin (fun k => val_main_v57 (F := Ideal) x0 x1 x2 x3 x4 x5 x6 x7 x8 (ix2 r k)) (fun k q => x11 (ix2 q k)) (Cert.Spec.colN j) + x13 (ix1 (Cert.Spec.colN j)))) := by
  rw [val_main_v101_apply, val_main_v100_apply, val_main_v99_apply, rg2, val_main_v81_apply, val_main_v84_apply, e81, e84, gi2, gh2]
  simp only [Ideal.addf_def, Ideal.mulf_def, Ideal.hostUnary_tanh_def]

/-- Entry (r, j) of h2, the second GRU layer. -/
theorem ref_h2 (r : Fin 50000) (j : Fin 128) :
    val_main_v106 (F := Ideal) x0 x1 x2 x3 x4 x5 x6 x7 x8 x9 x10 x11 x12 x13 (ix2 r j)
      = Cert.Spec.gruAt (fun k => val_main_v68 (F := Ideal) x0 x1 x2 x3 x4 x5 x6 x7 x8 x9 (ix2 r k))
          (fun k => val_main_v57 (F := Ideal) x0 x1 x2 x3 x4 x5 x6 x7 x8 (ix2 r k))
          (fun k q => x10 (ix2 q k)) (fun k q => x11 (ix2 q k)) (fun q => x12 (ix1 q)) (fun q => x13 (ix1 q)) j := by
  rw [val_main_v106_apply, val_main_v104_apply, val_main_v103_apply, val_main_v102_apply, val_main_cst_13_apply, val_main_v105_apply,
    zg2, ng2]
  simp only [Ideal.addf_def, Ideal.mulf_def, Ideal.subf_def, Ideal.ofBits_def]
  rfl

end Cert.ReferenceIdeal.RefGru

end
-- ==== Proof.KFold.lean ====
/-
  The kernel program's result as a function of its arguments. Its @main is five stretches of host
  operations around three kernel regions; the buffer contents at each boundary are a fold from the launch
  memory. Walking that fold stage by stage, each array a later stage reads is identified with the
  reference's value of the same stage:
    h0, m0 (first region) → agg0 (gather at the wrapped sources, scatter-add at the destinations)
    → h1, m1 (middle region) → agg1 → the result (last region).
  A region's output array is the row function of Spec of its input arrays, and so is the reference's
  stage; the gather in between is jnp.take's filled gather, which under the precondition on the source
  indices is the reference's plain gather; the scatter-add is the same operation of the same operands on
  both sides; a bias reshaped to one row and a bias broadcast along the rows read the same entry; the gate
  weights are transposed by the same operation on both sides.
-/
import proofs.«424320_j26834955665843_1_alg».proof.Proof.Gen.KernelIdeal.Frame
import proofs.«424320_j26834955665843_1_alg».proof.Proof.Stretches
import proofs.«424320_j26834955665843_1_alg».proof.Proof.StretchTake0
import proofs.«424320_j26834955665843_1_alg».proof.Proof.StretchTake1
import proofs.«424320_j26834955665843_1_alg».proof.Proof.Region0
import proofs.«424320_j26834955665843_1_alg».proof.Proof.Region1
import proofs.«424320_j26834955665843_1_alg».proof.Proof.Region2
import proofs.«424320_j26834955665843_1_alg».proof.Proof.Take
import proofs.«424320_j26834955665843_1_alg».proof.Proof.PreSrc
import proofs.«424320_j26834955665843_1_alg».proof.Proof.RefLin
import proofs.«424320_j26834955665843_1_alg».proof.Proof.RefGru
import Idealize.ShloMosaic.Lib.StableHlo.Run
import Idealize.ShloMosaic.Lib.ValueIdx
import Idealize.ShloMosaic.Lib.Pipeline.Value

set_option maxRecDepth 16384

noncomputable section

namespace Cert.KernelIdeal.Fold

open Idealize.ShloMosaic Idealize.ShloMosaic.TcCoe Idealize.ShloMosaic.ValueIdx Idealize.SL.Sem
open Cert.KernelIdeal Cert.KernelIdeal.Gen Idealize.ShloMosaic.StableHlo
open Cert.ReferenceIdeal.Read (val_main_v8 val_main_v9 val_main_v19 val_main_v57 val_main_v58 val_main_v68 val_main_v106 val_main_v110)

/-! ## Two layout readings -/

/-- A vector reshaped to one row, read at (0, q), is the vector at q. -/
theorem row_of_reshape {n : Nat} (b : (⟨1, ![n]⟩ : Shape).Idx → EReal) (h : (⟨1, ![n]⟩ : Shape).ShapeCasts ⟨2, ![1, n]⟩)
    (z : Fin 1) (q : Fin n) : shapeCast ⟨2, ![1, n]⟩ b h (ix2 z q) = b (ix1 q) := by
  rw [shapeCast_addUnit_apply]
  refine congrArg b (funext fun a => ?_)
  match a with
  | ⟨0, _⟩ => rfl

/-- A transposed matrix read at (k, q) is the matrix at (q, k). -/
theorem transpose_at {a b : Nat} (x : (⟨2, ![a, b]⟩ : Shape).Idx → EReal)
    (h : (⟨2, ![a, b]⟩ : Shape).Transposes [1, 0] ⟨2, ![b, a]⟩) (k : Fin b) (q : Fin a) :
    transpose ⟨2, ![b, a]⟩ [1, 0] x h (ix2 k q) = x (ix2 q k) :=
  transpose_apply [1, 0] x h (ix2 k q) (ix2 q k) (fun d => match d with
    | ⟨0, _⟩ => rfl
    | ⟨1, _⟩ => rfl)

variable (m : (ℓ : Loc nD τ sig) → Buf (Elt Ideal) ℓ) (ρ : Dev nD → PrngReg)

/-! ## The reference's stages at the kernel program's arguments -/

abbrev rH0 (c : Dev nD) := val_main_v8 (F := Ideal) (m ((c : Thread nD τ).loc main_arg0)) (m ((c : Thread nD τ).loc main_arg2)) (m ((c : Thread nD τ).loc main_arg3))
abbrev rM0 (c : Dev nD) := val_main_v9 (F := Ideal) (m ((c : Thread nD τ).loc main_arg0)) (m ((c : Thread nD τ).loc main_arg2)) (m ((c : Thread nD τ).loc main_arg3)) (m ((c : Thread nD τ).loc main_arg4))
abbrev rAgg0 (c : Dev nD) := val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4))
abbrev rH1 (c : Dev nD) := val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
abbrev rM1 (c : Dev nD) := val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
abbrev rAgg1 (c : Dev nD) := val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
abbrev rH2 (c : Dev nD) := val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
abbrev rOut (c : Dev nD) := val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-! ## Buffers nothing has written yet: the arguments, and the two rows of edge_index -/

theorem W1_arg (c : Dev nD) (b : Ref sig .tc) (h0 : b ∉ wr0) : W1 m ρ c (Proc.devRef .tc b) = m ((c : Thread nD τ).loc b) :=
  keep0 (W0 m ρ c) b h0
theorem W1_v1 (c : Dev nD) : W1 m ρ c (Proc.devRef .tc main_v1) = Cert.KernelIdeal.PreSrc.srcOf (m ((c : Thread nD τ).loc main_arg1)) := s0_v1 (W0 m ρ c)
theorem W1_v3 (c : Dev nD) : W1 m ρ c (Proc.devRef .tc main_v3) = dstOf (m ((c : Thread nD τ).loc main_arg1)) := s0_v3 (W0 m ρ c)
theorem W1_v4 (c : Dev nD) : W1 m ρ c (Proc.devRef .tc main_v4) = shapeCast S1x128 (m ((c : Thread nD τ).loc main_arg3)) shapeCasts_S128_S1x128 := s0_v4 (W0 m ρ c)

theorem W3_arg (c : Dev nD) (b : Ref sig .tc) (h0 : b ∉ wr0) (hr0 : ∀ w, Pipeline.arrRef spec0 w ≠ b) (h1 : b ∉ wr1) :
    W3 m ρ c (Proc.devRef .tc b) = m ((c : Thread nD τ).loc b) :=
  (keep1 (W2 m ρ c) b h1).trans ((W2_of_ne m ρ c b hr0).trans (W1_arg m ρ c b h0))
theorem W4_arg (c : Dev nD) (b : Ref sig .tc) (h0 : b ∉ wr0) (hr0 : ∀ w, Pipeline.arrRef spec0 w ≠ b) (h1 : b ∉ wr1) (h11 : b ∉ wr11) :
    W4 m ρ c (Proc.devRef .tc b) = m ((c : Thread nD τ).loc b) :=
  (keep11 (W3 m ρ c) b h11).trans (W3_arg m ρ c b h0 hr0 h1)
theorem W6_arg (c : Dev nD) (b : Ref sig .tc) (h0 : b ∉ wr0) (hr0 : ∀ w, Pipeline.arrRef spec0 w ≠ b) (h1 : b ∉ wr1) (h11 : b ∉ wr11)
    (hr1 : ∀ w, Pipeline.arrRef spec1 w ≠ b) (h2 : b ∉ wr2) : W6 m ρ c (Proc.devRef .tc b) = m ((c : Thread nD τ).loc b) :=
  (keep2 (W5 m ρ c) b h2).trans ((W5_of_ne m ρ c b hr1).trans (W4_arg m ρ c b h0 hr0 h1 h11))
theorem W7_arg (c : Dev nD) (b : Ref sig .tc) (h0 : b ∉ wr0) (hr0 : ∀ w, Pipeline.arrRef spec0 w ≠ b) (h1 : b ∉ wr1) (h11 : b ∉ wr11)
    (hr1 : ∀ w, Pipeline.arrRef spec1 w ≠ b) (h2 : b ∉ wr2) (h21 : b ∉ wr21) : W7 m ρ c (Proc.devRef .tc b) = m ((c : Thread nD τ).loc b) :=
  (keep21 (W6 m ρ c) b h21).trans (W6_arg m ρ c b h0 hr0 h1 h11 hr1 h2)

/-- The source and destination rows are written once, before the first region, and never again. -/
theorem W2_v1 (c : Dev nD) : W2 m ρ c (Proc.devRef .tc main_v1) = Cert.KernelIdeal.PreSrc.srcOf (m ((c : Thread nD τ).loc main_arg1)) :=
  (W2_of_ne m ρ c main_v1 (by decide)).trans (W1_v1 m ρ c)
theorem W2_v3 (c : Dev nD) : W2 m ρ c (Proc.devRef .tc main_v3) = dstOf (m ((c : Thread nD τ).loc main_arg1)) :=
  (W2_of_ne m ρ c main_v3 (by decide)).trans (W1_v3 m ρ c)
theorem W3_v3 (c : Dev nD) : W3 m ρ c (Proc.devRef .tc main_v3) = dstOf (m ((c : Thread nD τ).loc main_arg1)) :=
  (keep1 (W2 m ρ c) main_v3 (by decide)).trans (W2_v3 m ρ c)
theorem W5_v1 (c : Dev nD) : W5 m ρ c (Proc.devRef .tc main_v1) = Cert.KernelIdeal.PreSrc.srcOf (m ((c : Thread nD τ).loc main_arg1)) :=
  (W5_of_ne m ρ c main_v1 (by decide)).trans ((keep11 (W3 m ρ c) main_v1 (by decide)).trans ((keep1 (W2 m ρ c) main_v1 (by decide)).trans (W2_v1 m ρ c)))
theorem W6_v3 (c : Dev nD) : W6 m ρ c (Proc.devRef .tc main_v3) = dstOf (m ((c : Thread nD τ).loc main_arg1)) :=
  (keep2 (W5 m ρ c) main_v3 (by decide)).trans ((W5_of_ne m ρ c main_v3 (by decide)).trans ((keep11 (W3 m ρ c) main_v3 (by decide)).trans (W3_v3 m ρ c)))

/-! ## The first region: h0 and m0 -/

theorem W2_h0 (c : Dev nD) : W2 m ρ c (Proc.devRef .tc main_v5_0) = rH0 m c := by
  refine (W2_arr m ρ c 4).trans ?_
  funext i
  obtain ⟨r, j, rfl⟩ : ∃ (r : Fin 50000) (j : Fin 128), i = ix2 r j := ⟨i 0, i 1, eq_ix2 i⟩
  refine (Cert.KernelIdeal.Reg0.arr_h0 (V1 m ρ) c r j).trans ?_
  refine Eq.trans ?_ (Cert.ReferenceIdeal.RefLin.ref_h0 _ _ _ r j).symm
  have e0 : V1 m ρ c main_arg0 = (m ((c : Thread nD τ).loc main_arg0)) := W1_arg m ρ c main_arg0 (by decide)
  have e2 : V1 m ρ c main_arg2 = (m ((c : Thread nD τ).loc main_arg2)) := W1_arg m ρ c main_arg2 (by decide)
  have e4 : ∀ j', V1 m ρ c main_v4 (ix2 0 j') = (m ((c : Thread nD τ).loc main_arg3)) (ix1 j') := fun j' => by
    rw [show V1 m ρ c main_v4 = _ from W1_v4 m ρ c]; exact row_of_reshape _ _ 0 j'
  simp only [e0, e2, e4]

theorem W2_m0 (c : Dev nD) : W2 m ρ c (Proc.devRef .tc main_v5_1) = rM0 m c := by
  refine (W2_arr m ρ c 5).trans ?_
  funext i
  obtain ⟨r, j, rfl⟩ : ∃ (r : Fin 50000) (j : Fin 128), i = ix2 r j := ⟨i 0, i 1, eq_ix2 i⟩
  refine (Cert.KernelIdeal.Reg0.arr_m0 (V1 m ρ) c r j).trans ?_
  refine Eq.trans ?_ (Cert.ReferenceIdeal.RefLin.ref_m0 _ _ _ _ r j).symm
  have hrow : ∀ k, Cert.Spec.h0At (fun k' => V1 m ρ c main_arg0 (ix2 r k')) (fun k' j' => V1 m ρ c main_arg2 (ix2 k' j'))
      (fun j' => V1 m ρ c main_v4 (ix2 0 j')) k = rH0 m c (ix2 r k) := fun k =>
    (Cert.KernelIdeal.Reg0.arr_h0 (V1 m ρ) c r k).symm.trans (congrFun ((W2_arr m ρ c 4).symm.trans (W2_h0 m ρ c)) (ix2 r k))
  have e4 : V1 m ρ c main_arg4 = (m ((c : Thread nD τ).loc main_arg4)) := W1_arg m ρ c main_arg4 (by decide)
  simp only [hrow, e4]

/-! ## The first aggregation: jnp.take at the sources, scatter-add at the destinations -/

theorem W3_v6 (c : Dev nD) : W3 m ρ c (Proc.devRef .tc main_v6)
    = Cert.KernelIdeal.Take.takeFill (F := Ideal) (rM0 m c) (Cert.KernelIdeal.PreSrc.srcOf (m ((c : Thread nD τ).loc main_arg1))) := by
  refine (Take0.take_out (W2 m ρ c)).trans ?_
  rw [W2_m0 m ρ c, W2_v1 m ρ c]

theorem W4_agg0 (hpre : Cert.Pre_KernelIdeal m) (c : Dev nD) : W4 m ρ c (Proc.devRef .tc main_v9) = rAgg0 m c := by
  refine (s11_v9 (W3 m ρ c)).trans ?_
  rw [W3_v3 m ρ c, W3_v6 m ρ c,
    Cert.KernelIdeal.Take.takeFill_eq_gather _ _ (Cert.KernelIdeal.PreSrc.src_in_range m hpre c)]
  rfl

theorem W4_h0 (c : Dev nD) : W4 m ρ c (Proc.devRef .tc main_v5_0) = rH0 m c :=
  (keep11 (W3 m ρ c) main_v5_0 (by decide)).trans ((keep1 (W2 m ρ c) main_v5_0 (by decide)).trans (W2_h0 m ρ c))

theorem W4_v10 (c : Dev nD) : W4 m ρ c (Proc.devRef .tc main_v10) = transpose S128x384 [1, 0] (m ((c : Thread nD τ).loc main_arg5)) transposes_S384x128_S128x384_1_0 :=
  (s11_v10 (W3 m ρ c)).trans (by rw [W3_arg m ρ c main_arg5 (by decide) (by decide) (by decide)])
theorem W4_v11 (c : Dev nD) : W4 m ρ c (Proc.devRef .tc main_v11) = transpose S128x384 [1, 0] (m ((c : Thread nD τ).loc main_arg6)) transposes_S384x128_S128x384_1_0 :=
  (s11_v11 (W3 m ρ c)).trans (by rw [W3_arg m ρ c main_arg6 (by decide) (by decide) (by decide)])
theorem W4_v12 (c : Dev nD) : W4 m ρ c (Proc.devRef .tc main_v12) = shapeCast S1x384 (m ((c : Thread nD τ).loc main_arg7)) shapeCasts_S384_S1x384 :=
  (s11_v12 (W3 m ρ c)).trans (by rw [W3_arg m ρ c main_arg7 (by decide) (by decide) (by decide)])
theorem W4_v13 (c : Dev nD) : W4 m ρ c (Proc.devRef .tc main_v13) = shapeCast S1x384 (m ((c : Thread nD τ).loc main_arg8)) shapeCasts_S384_S1x384 :=
  (s11_v13 (W3 m ρ c)).trans (by rw [W3_arg m ρ c main_arg8 (by decide) (by decide) (by decide)])

/-! ## The middle region: h1 and m1 -/

/-- Row r of the middle region's new hidden state is the reference's first GRU layer at row r. -/
theorem h1_row (hpre : Cert.Pre_KernelIdeal m) (c : Dev nD) (r : Fin 50000) (j : Fin 128) :
    Cert.KernelIdeal.Reg1.h1At (V4 m ρ) c r j = rH1 m c (ix2 r j) := by
  refine Eq.trans ?_ (Cert.ReferenceIdeal.RefGru.ref_h1 _ _ _ _ _ _ _ _ _ r j).symm
  have e9 : V4 m ρ c main_v9 = rAgg0 m c := W4_agg0 m ρ hpre c
  have e5 : V4 m ρ c main_v5_0 = rH0 m c := W4_h0 m ρ c
  have e10 : ∀ (k : Fin 128) (q : Fin 384), V4 m ρ c main_v10 (ix2 k q) = (m ((c : Thread nD τ).loc main_arg5)) (ix2 q k) := fun k q => by
    rw [show V4 m ρ c main_v10 = _ from W4_v10 m ρ c]; exact transpose_at _ _ k q
  have e11 : ∀ (k : Fin 128) (q : Fin 384), V4 m ρ c main_v11 (ix2 k q) = (m ((c : Thread nD τ).loc main_arg6)) (ix2 q k) := fun k q => by
    rw [show V4 m ρ c main_v11 = _ from W4_v11 m ρ c]; exact transpose_at _ _ k q
  have e12 : ∀ q : Fin 384, V4 m ρ c main_v12 (ix2 0 q) = (m ((c : Thread nD τ).loc main_arg7)) (ix1 q) := fun q => by
    rw [show V4 m ρ c main_v12 = _ from W4_v12 m ρ c]; exact row_of_reshape _ _ 0 q
  have e13 : ∀ q : Fin 384, V4 m ρ c main_v13 (ix2 0 q) = (m ((c : Thread nD τ).loc main_arg8)) (ix1 q) := fun q => by
    rw [show V4 m ρ c main_v13 = _ from W4_v13 m ρ c]; exact row_of_reshape _ _ 0 q
  simp only [Cert.KernelIdeal.Reg1.h1At, e9, e5, e10, e11, e12, e13]

theorem W5_h1 (hpre : Cert.Pre_KernelIdeal m) (c : Dev nD) : W5 m ρ c (Proc.devRef .tc main_v14_0) = rH1 m c := by
  refine (W5_arr m ρ c 7).trans ?_
  funext i
  obtain ⟨r, j, rfl⟩ : ∃ (r : Fin 50000) (j : Fin 128), i = ix2 r j := ⟨i 0, i 1, eq_ix2 i⟩
  exact (Cert.KernelIdeal.Reg1.arr_h1 (V4 m ρ) c r j).trans (h1_row m ρ hpre c r j)

theorem W5_m1 (hpre : Cert.Pre_KernelIdeal m) (c : Dev nD) : W5 m ρ c (Proc.devRef .tc main_v14_1) = rM1 m c := by
  refine (W5_arr m ρ c 8).trans ?_
  funext i
  obtain ⟨r, j, rfl⟩ : ∃ (r : Fin 50000) (j : Fin 128), i = ix2 r j := ⟨i 0, i 1, eq_ix2 i⟩
  refine (Cert.KernelIdeal.Reg1.arr_m1 (V4 m ρ) c r j).trans ?_
  refine Eq.trans ?_ (Cert.ReferenceIdeal.RefLin.ref_m1 _ _ _ _ _ _ _ _ _ _ r j).symm
  have e9 : V4 m ρ c main_arg9 = (m ((c : Thread nD τ).loc main_arg9)) := W4_arg m ρ c main_arg9 (by decide) (by decide) (by decide) (by decide)
  simp only [h1_row m ρ hpre c r, e9]

/-! ## The second aggregation -/

theorem W6_v15 (hpre : Cert.Pre_KernelIdeal m) (c : Dev nD) : W6 m ρ c (Proc.devRef .tc main_v15)
    = Cert.KernelIdeal.Take.takeFill (F := Ideal) (rM1 m c) (Cert.KernelIdeal.PreSrc.srcOf (m ((c : Thread nD τ).loc main_arg1))) := by
  refine (Take1.take_out (W5 m ρ c)).trans ?_
  rw [W5_m1 m ρ hpre c, W5_v1 m ρ c]

theorem W7_agg1 (hpre : Cert.Pre_KernelIdeal m) (c : Dev nD) : W7 m ρ c (Proc.devRef .tc main_v18) = rAgg1 m c := by
  refine (s21_v18 (W6 m ρ c)).trans ?_
  rw [W6_v3 m ρ c, W6_v15 m ρ hpre c,
    Cert.KernelIdeal.Take.takeFill_eq_gather _ _ (Cert.KernelIdeal.PreSrc.src_in_range m hpre c)]
  rfl

theorem W7_h1 (hpre : Cert.Pre_KernelIdeal m) (c : Dev nD) : W7 m ρ c (Proc.devRef .tc main_v14_0) = rH1 m c :=
  (keep21 (W6 m ρ c) main_v14_0 (by decide)).trans ((keep2 (W5 m ρ c) main_v14_0 (by decide)).trans (W5_h1 m ρ hpre c))

theorem W7_v19 (c : Dev nD) : W7 m ρ c (Proc.devRef .tc main_v19) = transpose S128x384 [1, 0] (m ((c : Thread nD τ).loc main_arg10)) transposes_S384x128_S128x384_1_0 :=
  (s21_v19 (W6 m ρ c)).trans (by rw [W6_arg m ρ c main_arg10 (by decide) (by decide) (by decide) (by decide) (by decide) (by decide)])
theorem W7_v20 (c : Dev nD) : W7 m ρ c (Proc.devRef .tc main_v20) = transpose S128x384 [1, 0] (m ((c : Thread nD τ).loc main_arg11)) transposes_S384x128_S128x384_1_0 :=
  (s21_v20 (W6 m ρ c)).trans (by rw [W6_arg m ρ c main_arg11 (by decide) (by decide) (by decide) (by decide) (by decide) (by decide)])
theorem W7_v21 (c : Dev nD) : W7 m ρ c (Proc.devRef .tc main_v21) = shapeCast S1x384 (m ((c : Thread nD τ).loc main_arg12)) shapeCasts_S384_S1x384 :=
  (s21_v21 (W6 m ρ c)).trans (by rw [W6_arg m ρ c main_arg12 (by decide) (by decide) (by decide) (by decide) (by decide) (by decide)])
theorem W7_v22 (c : Dev nD) : W7 m ρ c (Proc.devRef .tc main_v22) = shapeCast S1x384 (m ((c : Thread nD τ).loc main_arg13)) shapeCasts_S384_S1x384 :=
  (s21_v22 (W6 m ρ c)).trans (by rw [W6_arg m ρ c main_arg13 (by decide) (by decide) (by decide) (by decide) (by decide) (by decide)])
theorem W7_v23 (c : Dev nD) : W7 m ρ c (Proc.devRef .tc main_v23) = shapeCast S1x32 (m ((c : Thread nD τ).loc main_arg15)) shapeCasts_S32_S1x32 :=
  (s21_v23 (W6 m ρ c)).trans (by rw [W6_arg m ρ c main_arg15 (by decide) (by decide) (by decide) (by decide) (by decide) (by decide)])

/-! ## The last region: the result -/

/-- Row r of the last region's hidden state is the reference's second GRU layer at row r. -/
theorem h2_row (hpre : Cert.Pre_KernelIdeal m) (c : Dev nD) (r : Fin 50000) (j : Fin 128) :
    Cert.KernelIdeal.Reg2.h2At (V7 m ρ) c r j = rH2 m c (ix2 r j) := by
  refine Eq.trans ?_ (Cert.ReferenceIdeal.RefGru.ref_h2 _ _ _ _ _ _ _ _ _ _ _ _ _ _ r j).symm
  have e18 : V7 m ρ c main_v18 = rAgg1 m c := W7_agg1 m ρ hpre c
  have e14 : V7 m ρ c main_v14_0 = rH1 m c := W7_h1 m ρ hpre c
  have e19 : ∀ (k : Fin 128) (q : Fin 384), V7 m ρ c main_v19 (ix2 k q) = (m ((c : Thread nD τ).loc main_arg10)) (ix2 q k) := fun k q => by
    rw [show V7 m ρ c main_v19 = _ from W7_v19 m ρ c]; exact transpose_at _ _ k q
  have e20 : ∀ (k : Fin 128) (q : Fin 384), V7 m ρ c main_v20 (ix2 k q) = (m ((c : Thread nD τ).loc main_arg11)) (ix2 q k) := fun k q => by
    rw [show V7 m ρ c main_v20 = _ from W7_v20 m ρ c]; exact transpose_at _ _ k q
  have e21 : ∀ q : Fin 384, V7 m ρ c main_v21 (ix2 0 q) = (m ((c : Thread nD τ).loc main_arg12)) (ix1 q) := fun q => by
    rw [show V7 m ρ c main_v21 = _ from W7_v21 m ρ c]; exact row_of_reshape _ _ 0 q
  have e22 : ∀ q : Fin 384, V7 m ρ c main_v22 (ix2 0 q) = (m ((c : Thread nD τ).loc main_arg13)) (ix1 q) := fun q => by
    rw [show V7 m ρ c main_v22 = _ from W7_v22 m ρ c]; exact row_of_reshape _ _ 0 q
  simp only [Cert.KernelIdeal.Reg2.h2At, e18, e14, e19, e20, e21, e22]

/-- The kernel program's result array, under the precondition, is the reference's result at the same arguments. -/
theorem W8_out (hpre : Cert.Pre_KernelIdeal m) (c : Dev nD) : W8 m ρ c (Proc.devRef .tc main_v24) = rOut m c := by
  refine (W8_arr m ρ c 8).trans ?_
  funext i
  obtain ⟨r, j, rfl⟩ : ∃ (r : Fin 50000) (j : Fin 32), i = ix2 r j := ⟨i 0, i 1, eq_ix2 i⟩
  refine (Cert.KernelIdeal.Reg2.arr_out (V7 m ρ) c r j).trans ?_
  refine Eq.trans ?_ (Cert.ReferenceIdeal.RefLin.ref_out _ _ _ _ _ _ _ _ _ _ _ _ _ _ _ _ r j).symm
  have e14 : V7 m ρ c main_arg14 = (m ((c : Thread nD τ).loc main_arg14)) := W7_arg m ρ c main_arg14 (by decide) (by decide) (by decide) (by decide) (by decide) (by decide) (by decide)
  have e23 : ∀ q : Fin 32, V7 m ρ c main_v23 (ix2 0 q) = (m ((c : Thread nD τ).loc main_arg15)) (ix1 q) := fun q => by
    rw [show V7 m ρ c main_v23 = _ from W7_v23 m ρ c]; exact row_of_reshape _ _ 0 q
  simp only [h2_row m ρ hpre c r, e14, e23]

end Cert.KernelIdeal.Fold

end
-- ==== Proof.lean ====
/-
  The kernel (three row-tiled Pallas calls around two host gather / scatter-add aggregations) against its
  jnp reference, a two-layer gated graph network: h0 = relu(x·W_in + b_in); per layer m = h·W_msg,
  agg = segment_sum(m[src], dst), GRU update of h by agg; out = h·W_out + b_out.

  On the extended reals every stage of both programs is the same function of its inputs: a change of float
  format is the identity, a matrix product into a zero accumulator and the host's dot_general are the same
  sum over the contracted axis, the kernel's logistic and jax's negate / exponential / 1 + · / 1 / · are the
  same function, and the kernels' 25 row blocks of 2000 rows tile the 50000 rows of every array. The one
  difference between the two programs as printed is the gather: the kernel's jnp.take (default mode) fills
  a row whose wrapped source index falls outside 0 … 49999 with NaN, while the reference's m[src] clamps
  such an index. Under the precondition's conjunct −50000 ≤ src < 50000 (the indices at which m[src] reads
  inside the array) no row is filled and the two gathers are one; the scatter-add at dst is the same
  operation of the same operands on both sides, whatever dst holds.

  frame_Kernel and frame_KernelIdeal are the generated frame certificates; frame_ReferenceIdeal is the
  generated run of the reference with the result dropped; preserves is trivial (the ideal pass rewrote
  nothing); algebraic names the kernel program's result at the last region's exit (KRun), identifies it
  stage by stage with the reference's stages (KFold), and reads the reference's run (Run, Read).
-/
import proofs.«424320_j26834955665843_1_alg».proof.Defs
import proofs.«424320_j26834955665843_1_alg».proof.Proof.Gen.Kernel
import proofs.«424320_j26834955665843_1_alg».proof.Proof.Gen.Kernel.Skeleton
import proofs.«424320_j26834955665843_1_alg».proof.Proof.Gen.Kernel.Launch
import proofs.«424320_j26834955665843_1_alg».proof.Proof.Gen.Kernel.Points
import proofs.«424320_j26834955665843_1_alg».proof.Proof.Gen.Kernel.Frame
import proofs.«424320_j26834955665843_1_alg».proof.Proof.Gen.KernelIdeal
import proofs.«424320_j26834955665843_1_alg».proof.Proof.Gen.KernelIdeal.Skeleton
import proofs.«424320_j26834955665843_1_alg».proof.Proof.Gen.KernelIdeal.Launch
import proofs.«424320_j26834955665843_1_alg».proof.Proof.Gen.KernelIdeal.Points
import proofs.«424320_j26834955665843_1_alg».proof.Proof.Gen.KernelIdeal.Frame
import proofs.«424320_j26834955665843_1_alg».proof.Proof.Gen.ReferenceIdeal
import proofs.«424320_j26834955665843_1_alg».proof.Proof.Gen.Pre_finite_inputs
import proofs.«424320_j26834955665843_1_alg».proof.Proof.Gen.ReferenceIdeal.Run
import proofs.«424320_j26834955665843_1_alg».proof.Proof.Gen.ReferenceIdeal.Read
import proofs.«424320_j26834955665843_1_alg».proof.Proof.KRun
import proofs.«424320_j26834955665843_1_alg».proof.Proof.KFold
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the same result array: the kernel
    program's is the last region's output, which stage by stage is the reference's result at the same arguments. -/
theorem algebraic : Cert.algebraic_KernelIdeal_ReferenceIdeal := by
  intro m ρ m' ρ' hpre hagree
  refine ⟨fun c => Cert.KernelIdeal.Gen.W8 m ρ c (Proc.devRef .tc Cert.KernelIdeal.main_v24),
    Cert.KernelIdeal.KRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v110_eq]
  obtain ⟨e0, e1, e2, e3, e4, e5, e6, e7, e8, e9, e10, e11, e12, e13, e14, e15⟩ := hagree c
  rw [e0, e1, e2, e3, e4, e5, e6, e7, e8, e9, e10, e11, e12, e13, e14, e15]
  exact (Cert.KernelIdeal.Fold.W8_out m ρ hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
